-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S16x10 .f32) (main_arg9 : FVec F S10 .f32) (main_v33 : IVec S_ 1) : IVec S_ 1 :=
  let main_v34 : FVec F S16x10 .f32 := Host.absf main_arg8
  let main_cst_12 : FVec F S_ .f32 := constant S_ .f32 0x7F800000#32
  let main_v35 : FVec F S16x10 .f32 := broadcastInDim S16x10 ![] bcast_S_S16x10 main_cst_12
  let main_v36 : IVec S16x10 1 := cmpf .olt main_v34 main_v35
  let main_c_13 : IVec S_ 1 := constantI S_ 1 1#1
  let main_v37 : IVec S_ 1 := (fun x v => Host.reduce IntOp.andi x v reducesTo_S16x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S16 .f32) (main_arg6 : FVec F S16x16 .f32) (main_arg7 : FVec F S16 .f32) (main_arg8 : FVec F S16x10 .f32) (main_arg9 : FVec F S10 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) (main_arg6 : FVec F S16x16 .f32) (main_arg7 : FVec F S16 .f32) (main_arg8 : FVec F S16x10 .f32) (main_arg9 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S25000x16 : Shape := ⟨2, ![25000, 16]⟩
abbrev S1x10 : Shape := ⟨2, ![1, 10]⟩
abbrev S100000x10 : Shape := ⟨2, ![100000, 10]⟩
abbrev S25000x10 : Shape := ⟨2, ![25000, 10]⟩
abbrev S25000 : Shape := ⟨1, ![25000]⟩
abbrev S25000x1 : Shape := ⟨2, ![25000, 1]⟩

abbrev nBuf : Space → Nat
  | .hbm => 106
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x10, .f32⟩
  | .hbm, ⟨9, _⟩ => ⟨S10, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x1, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x16, .f32⟩
  | .hbm, ⟨78, _⟩ => ⟨S3300000x1, .f32⟩
  | .hbm, ⟨79, _⟩ => ⟨S3300000x16, .f32⟩
  | .hbm, ⟨80, _⟩ => ⟨S3300000x16, .f32⟩
  | .hbm, ⟨81, _⟩ => ⟨S_, .f32⟩
  | .hbm, ⟨82, _⟩ => ⟨S100000x16, .f32⟩
  | .hbm, ⟨83, _⟩ => ⟨S3300000x1, .i32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000x16, .f32⟩
  | .hbm, ⟨96, _⟩ => ⟨S3300000x1, .f32⟩
  | .hbm, ⟨97, _⟩ => ⟨S3300000x16, .f32⟩
  | .hbm, ⟨98, _⟩ => ⟨S3300000x16, .f32⟩
  | .hbm, ⟨99, _⟩ => ⟨S_, .f32⟩
  | .hbm, ⟨100, _⟩ => ⟨S100000x16, .f32⟩
  | .hbm, ⟨101, _⟩ => ⟨S3300000x1, .i32⟩
  | .hbm, ⟨102, _⟩ => ⟨S100000x16, .f32⟩
  | .hbm, ⟨103, _⟩ => ⟨S1x16, .f32⟩
  | .hbm, ⟨104, _⟩ => ⟨S1x10, .f32⟩
  | .hbm, ⟨105, _⟩ => ⟨S100000x10, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S25000x16, .f32⟩
  | .local _ .vmem, ⟨6, _⟩ => ⟨S25000x16, .f32⟩
  | .local _ .vmem, ⟨7, _⟩ => ⟨S1x16, .f32⟩
  | .local _ .vmem, ⟨8, _⟩ => ⟨S16x16, .f32⟩
  | .local _ .vmem, ⟨9, _⟩ => ⟨S25000x16, .f32⟩
  | .local _ .vmem, ⟨10, _⟩ => ⟨S25000x16, .f32⟩
  | .local _ .vmem, ⟨11, _⟩ => ⟨S25000x16, .f32⟩
  | .local _ .vmem, ⟨12, _⟩ => ⟨S25000x16, .f32⟩
  | .local _ .vmem, ⟨13, _⟩ => ⟨S1x16, .f32⟩
  | .local _ .vmem, ⟨14, _⟩ => ⟨S16x16, .f32⟩
  | .local _ .vmem, ⟨15, _⟩ => ⟨S25000x16, .f32⟩
  | .local _ .vmem, ⟨16, _⟩ => ⟨S25000x16, .f32⟩
  | .local _ .vmem, ⟨17, _⟩ => ⟨S25000x16, .f32⟩
  | .local _ .vmem, ⟨18, _⟩ => ⟨S25000x16, .f32⟩
  | .local _ .vmem, ⟨19, _⟩ => ⟨S1x16, .f32⟩
  | .local _ .vmem, ⟨20, _⟩ => ⟨S16x10, .f32⟩
  | .local _ .vmem, ⟨21, _⟩ => ⟨S1x10, .f32⟩
  | .local _ .vmem, ⟨22, _⟩ => ⟨S25000x10, .f32⟩
  | .local _ .vmem, ⟨23, _⟩ => ⟨S25000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S25000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S25000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S25000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S25000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S25000x16_S25000x16_0_0 : ∀ a, (![0, 0] : Fin 2 → Nat) a + S25000x16.size a ≤ S25000x16.size a
  h_S25000x16 : 0 < S25000x16.numel
  shapeCasts_S25000x16_S25000x16 : S25000x16.ShapeCasts S25000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S25000x16 : S1x16.Broadcasts S25000x16
  inb_S16x16_S16x16_0_0 : ∀ a, (![0, 0] : Fin 2 → Nat) a + S16x16.size a ≤ S16x16.size a
  h_S16x16 : 0 < S16x16.numel
  shapeCasts_S10_S1x10 : S10.ShapeCasts S1x10
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S25000x10 : S1x10.Broadcasts S25000x10
  reduces_S25000x10_S25000 : S25000x10.Reduces [1] S25000
  shapeCasts_S25000_S25000x1 : S25000.ShapeCasts S25000x1
  broadcasts_S25000x1_S25000x10 : S25000x1.Broadcasts S25000x10
  inb_S25000x10_S25000x10_0_0 : ∀ a, (![0, 0] : Fin 2 → Nat) a + S25000x10.size a ≤ S25000x10.size a
  h_S25000x10 : 0 < S25000x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S25000x16_S16x16_S25000x16_1_0_0_1_n_n_wf : DotDims.WF S25000x16 S16x16 S25000x16 [1] [0] [0] [1] [] []
  dot_S25000x16_S16x10_S25000x10_1_0_0_1_n_n_wf : DotDims.WF S25000x16 S16x10 S25000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S100000x16.size a
  hwx1_0 : ∀ i : grid1.Coords, EltTy.bits .f32 = 32 ∨ (Rect.block (s := S100000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S25000x16.size a ≤ S100000x16.size a
  hwx1_3 : ∀ i : grid1.Coords, EltTy.bits .f32 = 32 ∨ (Rect.block (s := S100000x16) S25000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x16.size a ≤ S100000x16.size a
  hwx2_0 : ∀ i : grid2.Coords, EltTy.bits .f32 = 32 ∨ (Rect.block (s := S100000x16) S25000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S25000x16.size a ≤ S100000x16.size a
  hwx2_3 : ∀ i : grid2.Coords, EltTy.bits .f32 = 32 ∨ (Rect.block (s := S100000x16) S25000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S25000x16.size a ≤ S100000x16.size a
  hwx3_0 : ∀ i : grid3.Coords, EltTy.bits .f32 = 32 ∨ (Rect.block (s := S100000x16) S25000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x10.size a ≤ S16x10.size a
  hwx3_2 : ∀ i : grid3.Coords, EltTy.bits .f32 = 32 ∨ (Rect.block (s := S16x10) S16x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S25000x10.size a ≤ S100000x10.size a
  hwx3_4 : ∀ i : grid3.Coords, EltTy.bits .f32 = 32 ∨ (Rect.block (s := S100000x10) S25000x10.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S25000x16_S16x16_S25000x16_1_0_0_1_n_n : DotDims S25000x16 S16x16 S25000x16 where
  lhsContracting := [1]
  rhsContracting := [0]
  lhsNonContracting := [0]
  rhsNonContracting := [1]
  lhsBatch := []
  rhsBatch := []
  wf := dot_S25000x16_S16x16_S25000x16_1_0_0_1_n_n_wf
def dot_S25000x16_S16x10_S25000x10_1_0_0_1_n_n : DotDims S25000x16 S16x10 S25000x10 where
  lhsContracting := [1]
  rhsContracting := [0]
  lhsNonContracting := [0]
  rhsNonContracting := [1]
  lhsBatch := []
  rhsBatch := []
  wf := dot_S25000x16_S16x10_S25000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S25000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S25000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S25000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S25000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S25000x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x10, .f32⟩
  | 9 => ⟨S10, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x16, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x16, .f32⟩
  | 60 => ⟨S3300000x1, .f32⟩
  | 61 => ⟨S3300000x16, .f32⟩
  | 62 => ⟨S3300000x16, .f32⟩
  | 63 => ⟨S_, .f32⟩
  | 64 => ⟨S100000x16, .f32⟩
  | 65 => ⟨S3300000x1, .i32⟩
  | 66 => ⟨S100000x16, .f32⟩
  | 67 => ⟨S1x16, .f32⟩
  | 68 => ⟨S100000x16, .f32⟩
  | 69 => ⟨S100000x16, .f32⟩
  | 70 => ⟨S_, .f32⟩
  | 71 => ⟨S100000x16, .f32⟩
  | 72 => ⟨S100000x16, .f32⟩
  | 73 => ⟨S100000x16, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x16, .f32⟩
  | 83 => ⟨S3300000x1, .f32⟩
  | 84 => ⟨S3300000x16, .f32⟩
  | 85 => ⟨S3300000x16, .f32⟩
  | 86 => ⟨S_, .f32⟩
  | 87 => ⟨S100000x16, .f32⟩
  | 88 => ⟨S3300000x1, .i32⟩
  | 89 => ⟨S100000x16, .f32⟩
  | 90 => ⟨S1x16, .f32⟩
  | 91 => ⟨S100000x16, .f32⟩
  | 92 => ⟨S100000x16, .f32⟩
  | 93 => ⟨S_, .f32⟩
  | 94 => ⟨S100000x16, .f32⟩
  | 95 => ⟨S100000x16, .f32⟩
  | 96 => ⟨S100000x16, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000x16, .f32⟩
  | 106 => ⟨S3300000x1, .f32⟩
  | 107 => ⟨S3300000x16, .f32⟩
  | 108 => ⟨S3300000x16, .f32⟩
  | 109 => ⟨S_, .f32⟩
  | 110 => ⟨S100000x16, .f32⟩
  | 111 => ⟨S3300000x1, .i32⟩
  | 112 => ⟨S100000x16, .f32⟩
  | 113 => ⟨S1x16, .f32⟩
  | 114 => ⟨S100000x16, .f32⟩
  | 115 => ⟨S100000x16, .f32⟩
  | 116 => ⟨S100000x10, .f32⟩
  | 117 => ⟨S1x10, .f32⟩
  | 118 => ⟨S100000x10, .f32⟩
  | 119 => ⟨S100000x10, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x10, .f32⟩
  | 127 => ⟨S100000x10, .f32⟩
  | _ => ⟨S100000x128, .f32⟩

abbrev hbmTy0_1 (i : Nat) : BufTy := match i % 128 with
  | 0 => ⟨S100000x10, .f32⟩
  | 1 => ⟨S_, .f32⟩
  | 2 => ⟨S100000, .f32⟩
  | 3 => ⟨S100000x1, .f32⟩
  | 4 => ⟨S100000x1, .f32⟩
  | 5 => ⟨S100000x10, .f32⟩
  | 6 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call3_cst : Ref sig .tc := ⟨.hbm, 120, rfl⟩
abbrev main_call3_v0 : Ref sig .tc := ⟨.hbm, 121, rfl⟩
abbrev main_call3_cst_0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_cst_1 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_v87 : Ref sig .tc := ⟨.hbm, 134, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x10_S100000x10_1_0_0_1_n_n_wf : DotDims.WF S100000x16 S16x10 S100000x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf

class Facts : Prop extends Facts₀ where

variable [Facts]
-- ==== Proof.Agg.lean ====
/-
  The host text both programs run between two dense maps, as one function: gather the rows of the last product at
  the edges' sources, scale each by its edge's weight, scatter-add into the edges' targets. The reference's three
  aggregates are this function of the product before each; so are the kernel program's (the chain module). Also here:
  a length-n vector as a one-row matrix, which the reference makes by a broadcast and the kernel program by a reshape.
-/
import proofs.«150970_j10299331576450_1_alg».proof.Proof.RefRead
import Idealize.ShloMosaic.Lib.ValueIdx
import Idealize.ShloMosaic.Lib.ValueLayout

noncomputable section

/-! ## The aggregation both programs run between two dense maps -/

namespace Cert.ReferenceIdeal.Agg

open Cert.ReferenceIdeal Cert.ReferenceIdeal.Gen Cert.ReferenceIdeal.ReadP Idealize.ShloMosaic Idealize.ShloMosaic.TcCoe Idealize.ShloMosaic.ValueIdx

variable {F : FTy → Type} [FloatOps F]

/-- One normalised aggregation over the edges: row `s e` of `hw` (a negative index counted from the end), scaled by the
    edge's weight `n e`, added into row `d e` of a zero array. -/
def agg (hw : (⟨S100000x16, .f32⟩ : BufTy).Contents (Elt F)) (s d : (⟨S3300000, .i32⟩ : BufTy).Contents (Elt F))
    (n : (⟨S3300000, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 d)
    (mulf
      (Host.gather gather_S100000x16_S3300000x1_S3300000x16_1_0_n_n_0_1_116 hw
        (broadcastInDim S3300000x1 ![0] bcast_S3300000_S3300000x1_0
          (select (cmpi .slt s (broadcastInDim S3300000 ![] bcast_S_S3300000 (constantI S_ 32 0#32)))
            (addi s (broadcastInDim S3300000 ![] bcast_S_S3300000 (constantI S_ 32 100000#32))) s)))
      (broadcastInDim S3300000x16 ![0, 1] bcast_S3300000x1_S3300000x16_0_1
        (broadcastInDim S3300000x1 ![0] bcast_S3300000_S3300000x1_0 n)))

variable (x0 : (⟨S100000x128, .f32⟩ : BufTy).Contents (Elt F)) (x1 : (⟨S2x3200000, .i32⟩ : BufTy).Contents (Elt F))
  (x2 : (⟨S128x16, .f32⟩ : BufTy).Contents (Elt F)) (x3 : (⟨S16, .f32⟩ : BufTy).Contents (Elt F))
  (x4 : (⟨S16x16, .f32⟩ : BufTy).Contents (Elt F)) (x5 : (⟨S16, .f32⟩ : BufTy).Contents (Elt F))
  (x6 : (⟨S16x16, .f32⟩ : BufTy).Contents (Elt F))

/-- The reference's three aggregates are `agg` of the product before each. -/
theorem v43_eq : val_main_v43 (F := F) x0 x1 x2
    = agg (val_main_v30 (F := F) x0 x2) (val_main_v3 (F := F) x1) (val_main_v6 (F := F) x1) (val_main_v29 (F := F) x1) := rfl
theorem v61_eq : val_main_v61 (F := F) x0 x1 x2 x3 x4
    = agg (val_main_v48 (F := F) x0 x1 x2 x3 x4) (val_main_v3 (F := F) x1) (val_main_v6 (F := F) x1) (val_main_v29 (F := F) x1) := rfl
theorem v79_eq : val_main_v79 (F := F) x0 x1 x2 x3 x4 x5 x6
    = agg (val_main_v66 (F := F) x0 x1 x2 x3 x4 x5 x6) (val_main_v3 (F := F) x1) (val_main_v6 (F := F) x1) (val_main_v29 (F := F) x1) := rfl

/-- A length-16 vector as one row: the reference broadcasts it to `[1,16]`, the kernel program reshapes it; entry
    `(0, k)` of either is entry `k`. -/
theorem row16_eq (x : (⟨S16, .f32⟩ : BufTy).Contents (Elt F)) (h : S16.ShapeCasts S1x16) :
    shapeCast S1x16 x h = val_main_v44 (F := F) x := by
  funext i
  obtain ⟨u, k, rfl⟩ : ∃ (u : Fin 1) (k : Fin 16), i = ix2 u k := ⟨i 0, i 1, eq_ix2 i⟩
  rw [shapeCast_a_1a_apply, val_main_v44_apply]
  exact congrArg x (funext fun a => by match a with | ⟨0, _⟩ => rfl)
theorem row10_eq (x : (⟨S10, .f32⟩ : BufTy).Contents (Elt F)) (h : S10.ShapeCasts S1x10) :
    shapeCast S1x10 x h = val_main_v84 (F := F) x := by
  funext i
  obtain ⟨u, k, rfl⟩ : ∃ (u : Fin 1) (k : Fin 10), i = ix2 u k := ⟨i 0, i 1, eq_ix2 i⟩
  rw [shapeCast_a_1a_apply, val_main_v84_apply]
  exact congrArg x (funext fun a => by match a with | ⟨0, _⟩ => rfl)

/-- The three bias rows are built by one text. -/
theorem v62_eq (x : (⟨S16, .f32⟩ : BufTy).Contents (Elt F)) : val_main_v62 (F := F) x = val_main_v44 (F := F) x := rfl
theorem v80_eq (x : (⟨S16, .f32⟩ : BufTy).Contents (Elt F)) : val_main_v80 (F := F) x = val_main_v44 (F := F) x := rfl

end Cert.ReferenceIdeal.Agg

end
-- ==== Proof.RefRunS.lean ====
/-
  The reference program's run, read stage by stage. Its @main is one straight line of 125 host operations; every weakly
  fair execution ends with each buffer at the fold of the operations over the launch contents. The line is cut at the
  three matrix products after the first and before the log-softmax, and each stretch is read at the few buffers the
  next stretch takes over: the edge lists and weights, the last product, the arguments not yet used. What a stretch
  leaves is a named function of what it found (`layer`, `scores`, `lsm`), and the reference's stages are the same
  functions of the stages before them, so the five stretches compose to the last stage of the arguments.
-/
import proofs.«150970_j10299331576450_1_alg».proof.Proof.RefRun
import proofs.«150970_j10299331576450_1_alg».proof.Proof.RefRead
import proofs.«150970_j10299331576450_1_alg».proof.Proof.Agg
import Idealize.ShloMosaic.Lib.StableHlo.Run
import Idealize.ShloMosaic.Lib.Pipeline.Frame

set_option maxRecDepth 16384

noncomputable section

namespace Cert.ReferenceIdeal.RunS

open Cert.ReferenceIdeal Cert.ReferenceIdeal.Gen Cert.ReferenceIdeal.ReadP Idealize.ShloMosaic Idealize.ShloMosaic.TcCoe Idealize.SL.Sem Idealize.ShloMosaic.StableHlo
open Cert.ReferenceIdeal.ValueP (ops main_eq scopedRefs_eq scopedSems_eq ops_sub)
open Cert.ReferenceIdeal.Agg (agg)

variable {F : FTy → Type} [FloatOps F]

/-! ## The line in seven stretches -/

/-- Operations 1 … 41 of the reference's @main: the edge lists, the edge weights and the first matrix product. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)) ]

/-- Operations 42 … 64 of the reference's @main: the first aggregation, bias, ReLU and the second matrix product. -/
abbrev opsB : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- Operations 65 … 87 of the reference's @main: the second aggregation, bias, ReLU and the third matrix product. -/
abbrev opsC : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x16 ![0, 1] bcast_S3300000x1_S3300000x16_0_1 : (⟨S3300000x1, .f32⟩ : BufTy).Contents (Elt F) → (⟨S3300000x16, .f32⟩ : BufTy).Contents (Elt F)),
    binary main_v55 main_v57 main_v58 (mulf : (⟨S3300000x16, .f32⟩ : BufTy).Contents (Elt F) → (⟨S3300000x16, .f32⟩ : BufTy).Contents (Elt F) → (⟨S3300000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v64) (TRef.of (T := ⟨S100000x16, .f32⟩) main_call2_v0) (TRef.of (T := ⟨S100000x16, .f32⟩) main_v65) maximumf,
    binary main_v65 main_arg6 main_v66 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- Operations 88 … 110 of the reference's @main: the third aggregation, bias, the class-score product and offset. -/
abbrev opsD : List (HloOp τ sig (Elt F)) :=
  [ nullary main_c_12 (constantI S_ 32 0#32),
    unary main_c_12 main_v67 (broadcastInDim S3300000 ![] bcast_S_S3300000 : (⟨S_, .i32⟩ : BufTy).Contents (Elt F) → (⟨S3300000, .i32⟩ : BufTy).Contents (Elt F)),
    binary main_v3 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v3 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v74 (broadcastInDim S3300000x1 ![0] bcast_S3300000_S3300000x1_0 : (⟨S3300000, .f32⟩ : BufTy).Contents (Elt F) → (⟨S3300000x1, .f32⟩ : BufTy).Contents (Elt F)),
    unary main_v74 main_v75 (broadcastInDim S3300000x16 ![0, 1] bcast_S3300000x1_S3300000x16_0_1 : (⟨S3300000x1, .f32⟩ : BufTy).Contents (Elt F) → (⟨S3300000x16, .f32⟩ : BufTy).Contents (Elt F)),
    binary main_v73 main_v75 main_v76 (mulf : (⟨S3300000x16, .f32⟩ : BufTy).Contents (Elt F) → (⟨S3300000x16, .f32⟩ : BufTy).Contents (Elt F) → (⟨S3300000x16, .f32⟩ : BufTy).Contents (Elt F)),
    nullary main_cst_14 (constant S_ .f32 0x00000000#32),
    unary main_cst_14 main_v77 (broadcastInDim S100000x16 ![] bcast_S_S100000x16 : (⟨S_, .f32⟩ : BufTy).Contents (Elt F) → (⟨S100000x16, .f32⟩ : BufTy).Contents (Elt F)),
    unary main_v6 main_v78 (broadcastInDim S3300000x1 ![0] bcast_S3300000_S3300000x1_0 : (⟨S3300000, .i32⟩ : BufTy).Contents (Elt F) → (⟨S3300000x1, .i32⟩ : BufTy).Contents (Elt F)),
    ternary main_v77 main_v78 main_v76 main_v79 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg7 main_v80 (broadcastInDim S1x16 ![1] bcast_S16_S1x16_1 : (⟨S16, .f32⟩ : BufTy).Contents (Elt F) → (⟨S1x16, .f32⟩ : BufTy).Contents (Elt F)),
    unary main_v80 main_v81 (broadcastInDim S100000x16 ![0, 1] bcast_S1x16_S100000x16_0_1 : (⟨S1x16, .f32⟩ : BufTy).Contents (Elt F) → (⟨S100000x16, .f32⟩ : BufTy).Contents (Elt F)),
    binary main_v79 main_v81 main_v82 (addf : (⟨S100000x16, .f32⟩ : BufTy).Contents (Elt F) → (⟨S100000x16, .f32⟩ : BufTy).Contents (Elt F) → (⟨S100000x16, .f32⟩ : BufTy).Contents (Elt F)),
    binary main_v82 main_arg8 main_v83 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    unary main_arg9 main_v84 (broadcastInDim S1x10 ![1] bcast_S10_S1x10_1 : (⟨S10, .f32⟩ : BufTy).Contents (Elt F) → (⟨S1x10, .f32⟩ : BufTy).Contents (Elt F)),
    unary main_v84 main_v85 (broadcastInDim S100000x10 ![0, 1] bcast_S1x10_S100000x10_0_1 : (⟨S1x10, .f32⟩ : BufTy).Contents (Elt F) → (⟨S100000x10, .f32⟩ : BufTy).Contents (Elt F)),
    binary main_v83 main_v85 main_v86 (addf : (⟨S100000x10, .f32⟩ : BufTy).Contents (Elt F) → (⟨S100000x10, .f32⟩ : BufTy).Contents (Elt F) → (⟨S100000x10, .f32⟩ : BufTy).Contents (Elt F)) ]

/-- Operations 111 … 112 of the reference's @main: the log-softmax's row maximum. -/
abbrev opsE1 : List (HloOp τ sig (Elt F)) :=
  [ TRef.nullary (TRef.of (T := ⟨S_, .f32⟩) main_call3_cst) (constant S_ .f32 0xFF800000#32),
    TRef.binary (TRef.of (T := ⟨S100000x10, .f32⟩) main_v86) (TRef.of (T := ⟨S_, .f32⟩) main_call3_cst) (TRef.of (T := ⟨S100000, .f32⟩) main_call3_v0) (fun x v => Host.reduce FloatOps.maximumf x v reducesTo_S100000x10_S100000_d1 h_S_) ]

/-- Operations 113 … 118 of the reference's @main: the scores less their row maximum. -/
abbrev opsE2 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x10, .f32⟩) main_call3_v4) (broadcastInDim S100000x10 ![0, 1] bcast_S100000x1_S100000x10_0_1),
    TRef.binary (TRef.of (T := ⟨S100000x10, .f32⟩) main_v86) (TRef.of (T := ⟨S100000x10, .f32⟩) main_call3_v4) (TRef.of (T := ⟨S100000x10, .f32⟩) main_call3_v5) subf ]

/-- Operations 119 … 125 of the reference's @main: less the logarithm of the row sum of their exponentials. -/
abbrev opsE3 : List (HloOp τ sig (Elt F)) :=
  [ TRef.unary (TRef.of (T := ⟨S100000x10, .f32⟩) main_call3_v5) (TRef.of (T := ⟨S100000x10, .f32⟩) main_call3_v6) Host.exp,
    TRef.nullary (TRef.of (T := ⟨S_, .f32⟩) main_call3_cst_1) (constant S_ .f32 0x00000000#32),
    TRef.binary (TRef.of (T := ⟨S100000x10, .f32⟩) main_call3_v6) (TRef.of (T := ⟨S_, .f32⟩) main_call3_cst_1) (TRef.of (T := ⟨S100000, .f32⟩) main_call3_v7) (fun x v => Host.reduceAdd x v reducesTo_S100000x10_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x10, .f32⟩) main_call3_v10) (broadcastInDim S100000x10 ![0, 1] bcast_S100000x1_S100000x10_0_1),
    TRef.binary (TRef.of (T := ⟨S100000x10, .f32⟩) main_call3_v5) (TRef.of (T := ⟨S100000x10, .f32⟩) main_call3_v10) (TRef.of (T := ⟨S100000x10, .f32⟩) main_v87) subf ]

/-- The seven stretches in order are the line. -/
theorem ops_eq : (ops : List (HloOp τ sig (Elt F))) = opsA ++ (opsB ++ (opsC ++ (opsD ++ (opsE1 ++ (opsE2 ++ opsE3))))) := rfl

/-! ## What a stretch computes, as a function of what it finds -/

/-- A middle layer: aggregate the last product, add the bias, ReLU, multiply by the next weight. -/
def layer (hw : (⟨S100000x16, .f32⟩ : BufTy).Contents (Elt F)) (s d : (⟨S3300000, .i32⟩ : BufTy).Contents (Elt F)) (n : (⟨S3300000, .f32⟩ : BufTy).Contents (Elt F))
    (b : (⟨S16, .f32⟩ : BufTy).Contents (Elt F)) (w : (⟨S16x16, .f32⟩ : BufTy).Contents (Elt F)) : (⟨S100000x16, .f32⟩ : BufTy).Contents (Elt F) :=
  Host.dotGeneral dot_S100000x16_S16x16_S100000x16_1_0_0_1_n_n none
    (maximumf
      (addf (agg hw s d n)
        (broadcastInDim S100000x16 ![0, 1] bcast_S1x16_S100000x16_0_1 (broadcastInDim S1x16 ![1] bcast_S16_S1x16_1 b)))
      (broadcastInDim S100000x16 ![] bcast_S_S100000x16 (constant S_ .f32 0x00000000#32)))
    w

/-- The class scores: aggregate the last product, add the bias, multiply by the class weight, add the class offset. -/
def scores (hw : (⟨S100000x16, .f32⟩ : BufTy).Contents (Elt F)) (s d : (⟨S3300000, .i32⟩ : BufTy).Contents (Elt F)) (n : (⟨S3300000, .f32⟩ : BufTy).Contents (Elt F))
    (b : (⟨S16, .f32⟩ : BufTy).Contents (Elt F)) (w : (⟨S16x10, .f32⟩ : BufTy).Contents (Elt F)) (cc : (⟨S10, .f32⟩ : BufTy).Contents (Elt F)) : (⟨S100000x10, .f32⟩ : BufTy).Contents (Elt F) :=
  addf
    (Host.dotGeneral dot_S100000x16_S16x10_S100000x10_1_0_0_1_n_n none
      (addf (agg hw s d n)
        (broadcastInDim S100000x16 ![0, 1] bcast_S1x16_S100000x16_0_1 (broadcastInDim S1x16 ![1] bcast_S16_S1x16_1 b)))
      w)
    (broadcastInDim S100000x10 ![0, 1] bcast_S1x10_S100000x10_0_1 (broadcastInDim S1x10 ![1] bcast_S10_S1x10_1 cc))

/-- A row's maximum as the host takes it: the fold from -∞ over the row. -/
def rowmax (z : (⟨S100000x10, .f32⟩ : BufTy).Contents (Elt F)) : (⟨S100000, .f32⟩ : BufTy).Contents (Elt F) :=
  Host.reduce FloatOps.maximumf z (constant S_ .f32 0xFF800000#32) reducesTo_S100000x10_S100000_d1 h_S_

/-- The scores less their row's maximum (taken once more against -∞, as the host does). -/
def shift (z : (⟨S100000x10, .f32⟩ : BufTy).Contents (Elt F)) (mx : (⟨S100000, .f32⟩ : BufTy).Contents (Elt F)) : (⟨S100000x10, .f32⟩ : BufTy).Contents (Elt F) :=
  subf z (broadcastInDim S100000x10 ![0, 1] bcast_S100000x1_S100000x10_0_1 (broadcastInDim S100000x1 ![0] bcast_S100000_S100000x1_0
    (maximumf (broadcastInDim S100000 ![] bcast_S_S100000 (constant S_ .f32 0xFF800000#32)) mx)))

/-- The shifted scores less the logarithm of their row's sum of exponentials. -/
def normalise (sh : (⟨S100000x10, .f32⟩ : BufTy).Contents (Elt F)) : (⟨S100000x10, .f32⟩ : BufTy).Contents (Elt F) :=
  subf sh
    (broadcastInDim S100000x10 ![0, 1] bcast_S100000x1_S100000x10_0_1
      (Host.log (broadcastInDim S100000x1 ![0] bcast_S100000_S100000x1_0
        (Host.reduceAdd (Host.exp sh) (constant S_ .f32 0x00000000#32) reducesTo_S100000x10_S100000_d1 h_S_))))

/-- The row-wise log-softmax as the host runs it. -/
def lsm (z : (⟨S100000x10, .f32⟩ : BufTy).Contents (Elt F)) : (⟨S100000x10, .f32⟩ : BufTy).Contents (Elt F) := normalise (shift z (rowmax z))

section Stages
variable (x0 : (⟨S100000x128, .f32⟩ : BufTy).Contents (Elt F)) (x1 : (⟨S2x3200000, .i32⟩ : BufTy).Contents (Elt F))
  (x2 : (⟨S128x16, .f32⟩ : BufTy).Contents (Elt F)) (x3 : (⟨S16, .f32⟩ : BufTy).Contents (Elt F))
  (x4 : (⟨S16x16, .f32⟩ : BufTy).Contents (Elt F)) (x5 : (⟨S16, .f32⟩ : BufTy).Contents (Elt F))
  (x6 : (⟨S16x16, .f32⟩ : BufTy).Contents (Elt F)) (x7 : (⟨S16, .f32⟩ : BufTy).Contents (Elt F))
  (x8 : (⟨S16x10, .f32⟩ : BufTy).Contents (Elt F)) (x9 : (⟨S10, .f32⟩ : BufTy).Contents (Elt F))

/-- The reference's stages are these functions of the stages before them. -/
theorem v48_layer : val_main_v48 (F := F) x0 x1 x2 x3 x4
    = layer (val_main_v30 (F := F) x0 x2) (val_main_v3 (F := F) x1) (val_main_v6 (F := F) x1) (val_main_v29 (F := F) x1) x3 x4 := rfl
theorem v66_layer : val_main_v66 (F := F) x0 x1 x2 x3 x4 x5 x6
    = layer (val_main_v48 (F := F) x0 x1 x2 x3 x4) (val_main_v3 (F := F) x1) (val_main_v6 (F := F) x1) (val_main_v29 (F := F) x1) x5 x6 := rfl
theorem v86_scores : val_main_v86 (F := F) x0 x1 x2 x3 x4 x5 x6 x7 x8 x9
    = scores (val_main_v66 (F := F) x0 x1 x2 x3 x4 x5 x6) (val_main_v3 (F := F) x1) (val_main_v6 (F := F) x1) (val_main_v29 (F := F) x1) x7 x8 x9 := rfl
theorem v87_lsm : val_main_v87 (F := F) x0 x1 x2 x3 x4 x5 x6 x7 x8 x9 = lsm (val_main_v86 (F := F) x0 x1 x2 x3 x4 x5 x6 x7 x8 x9) := rfl
end Stages

/-! ## Each stretch read at the buffers the next one takes over -/

variable (X : Valuation τ sig (Elt F))

theorem A_v3 : after opsA X (Proc.devRef .tc main_v3) = val_main_v3 (F := F) (X (Proc.devRef .tc main_arg1)) := by
  dsimp only [opsA]; after_results <;> rfl
theorem A_v6 : after opsA X (Proc.devRef .tc main_v6) = val_main_v6 (F := F) (X (Proc.devRef .tc main_arg1)) := by
  dsimp only [opsA]; after_results <;> rfl
set_option maxHeartbeats 2000000 in
theorem A_v29 : after opsA X (Proc.devRef .tc main_v29) = val_main_v29 (F := F) (X (Proc.devRef .tc main_arg1)) := by
  dsimp only [opsA]; after_results <;> rfl
set_option maxHeartbeats 20000000 in
theorem A_v30 : after opsA X (Proc.devRef .tc main_v30) = val_main_v30 (F := F) (X (Proc.devRef .tc main_arg0)) (X (Proc.devRef .tc main_arg2)) := by
  dsimp only [opsA]; after_results <;> rfl
theorem A_arg3 : after opsA X (Proc.devRef .tc main_arg3) = X (Proc.devRef .tc main_arg3) := by dsimp only [opsA]; after_results
theorem A_arg4 : after opsA X (Proc.devRef .tc main_arg4) = X (Proc.devRef .tc main_arg4) := by dsimp only [opsA]; after_results
theorem A_arg5 : after opsA X (Proc.devRef .tc main_arg5) = X (Proc.devRef .tc main_arg5) := by dsimp only [opsA]; after_results
theorem A_arg6 : after opsA X (Proc.devRef .tc main_arg6) = X (Proc.devRef .tc main_arg6) := by dsimp only [opsA]; after_results
theorem A_arg7 : after opsA X (Proc.devRef .tc main_arg7) = X (Proc.devRef .tc main_arg7) := by dsimp only [opsA]; after_results
theorem A_arg8 : after opsA X (Proc.devRef .tc main_arg8) = X (Proc.devRef .tc main_arg8) := by dsimp only [opsA]; after_results
theorem A_arg9 : after opsA X (Proc.devRef .tc main_arg9) = X (Proc.devRef .tc main_arg9) := by dsimp only [opsA]; after_results

set_option maxHeartbeats 1000000 in
theorem B_v48 : after opsB X (Proc.devRef .tc main_v48)
    = layer (X (Proc.devRef .tc main_v30)) (X (Proc.devRef .tc main_v3)) (X (Proc.devRef .tc main_v6)) (X (Proc.devRef .tc main_v29)) (X (Proc.devRef .tc main_arg3)) (X (Proc.devRef .tc main_arg4)) := by
  dsimp only [opsB]; after_results <;> rfl
theorem B_v3 : after opsB X (Proc.devRef .tc main_v3) = X (Proc.devRef .tc main_v3) := by dsimp only [opsB]; after_results
theorem B_v6 : after opsB X (Proc.devRef .tc main_v6) = X (Proc.devRef .tc main_v6) := by dsimp only [opsB]; after_results
theorem B_v29 : after opsB X (Proc.devRef .tc main_v29) = X (Proc.devRef .tc main_v29) := by dsimp only [opsB]; after_results
theorem B_arg5 : after opsB X (Proc.devRef .tc main_arg5) = X (Proc.devRef .tc main_arg5) := by dsimp only [opsB]; after_results
theorem B_arg6 : after opsB X (Proc.devRef .tc main_arg6) = X (Proc.devRef .tc main_arg6) := by dsimp only [opsB]; after_results
theorem B_arg7 : after opsB X (Proc.devRef .tc main_arg7) = X (Proc.devRef .tc main_arg7) := by dsimp only [opsB]; after_results
theorem B_arg8 : after opsB X (Proc.devRef .tc main_arg8) = X (Proc.devRef .tc main_arg8) := by dsimp only [opsB]; after_results
theorem B_arg9 : after opsB X (Proc.devRef .tc main_arg9) = X (Proc.devRef .tc main_arg9) := by dsimp only [opsB]; after_results

set_option maxHeartbeats 1000000 in
theorem C_v66 : after opsC X (Proc.devRef .tc main_v66)
    = layer (X (Proc.devRef .tc main_v48)) (X (Proc.devRef .tc main_v3)) (X (Proc.devRef .tc main_v6)) (X (Proc.devRef .tc main_v29)) (X (Proc.devRef .tc main_arg5)) (X (Proc.devRef .tc main_arg6)) := by
  dsimp only [opsC]; after_results <;> rfl
theorem C_v3 : after opsC X (Proc.devRef .tc main_v3) = X (Proc.devRef .tc main_v3) := by dsimp only [opsC]; after_results
theorem C_v6 : after opsC X (Proc.devRef .tc main_v6) = X (Proc.devRef .tc main_v6) := by dsimp only [opsC]; after_results
theorem C_v29 : after opsC X (Proc.devRef .tc main_v29) = X (Proc.devRef .tc main_v29) := by dsimp only [opsC]; after_results
theorem C_arg7 : after opsC X (Proc.devRef .tc main_arg7) = X (Proc.devRef .tc main_arg7) := by dsimp only [opsC]; after_results
theorem C_arg8 : after opsC X (Proc.devRef .tc main_arg8) = X (Proc.devRef .tc main_arg8) := by dsimp only [opsC]; after_results
theorem C_arg9 : after opsC X (Proc.devRef .tc main_arg9) = X (Proc.devRef .tc main_arg9) := by dsimp only [opsC]; after_results

set_option maxHeartbeats 20000000 in
theorem D_v86 : after opsD X (Proc.devRef .tc main_v86)
    = scores (X (Proc.devRef .tc main_v66)) (X (Proc.devRef .tc main_v3)) (X (Proc.devRef .tc main_v6)) (X (Proc.devRef .tc main_v29)) (X (Proc.devRef .tc main_arg7)) (X (Proc.devRef .tc main_arg8)) (X (Proc.devRef .tc main_arg9)) := by
  dsimp only [opsD]; after_results <;> rfl

/-- The last fifteen operations are the host's log-softmax; read in three steps. -/
theorem E1_v0 : after opsE1 X (Proc.devRef .tc main_call3_v0) = rowmax (X (Proc.devRef .tc main_v86)) := by
  dsimp only [opsE1]; after_results
  all_goals (try simp only [TRef.ofBuf, TRef.toBuf, cast_eq])
  all_goals rfl
theorem E1_v86 : after opsE1 X (Proc.devRef .tc main_v86) = X (Proc.devRef .tc main_v86) := by dsimp only [opsE1]; after_results
theorem E2_v5 : after opsE2 X (Proc.devRef .tc main_call3_v5) = shift (X (Proc.devRef .tc main_v86)) (X (Proc.devRef .tc main_call3_v0)) := by
  dsimp only [opsE2]; after_results
  all_goals (try simp only [TRef.ofBuf, TRef.toBuf, cast_eq])
  all_goals rfl
theorem E3_v87 : after opsE3 X (Proc.devRef .tc main_v87) = normalise (X (Proc.devRef .tc main_call3_v5)) := by
  dsimp only [opsE3]; after_results
  all_goals (try simp only [TRef.ofBuf, TRef.toBuf, cast_eq])
  all_goals rfl

/-! ## The stretches composed -/

/-- The whole line leaves the reference's last stage of the arguments in the result buffer. -/
theorem line_v87 : after ops X (Proc.devRef .tc main_v87)
    = val_main_v87 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) := by
  rw [ops_eq, StableHlo.after_append, StableHlo.after_append, StableHlo.after_append, StableHlo.after_append,
    StableHlo.after_append, StableHlo.after_append,
    E3_v87, E2_v5, E1_v0, E1_v86, D_v86, C_v66, C_v3, C_v6, C_v29, C_arg7, C_arg8, C_arg9,
    B_v48, B_v3, B_v6, B_v29, B_arg5, B_arg6, B_arg7, B_arg8, B_arg9,
    A_v30, A_v3, A_v6, A_v29, A_arg3, A_arg4, A_arg5, A_arg6, A_arg7, A_arg8, A_arg9,
    v87_lsm, v86_scores, v66_layer, v48_layer]
  rfl

/-! ## The run -/

set_option maxRecDepth 8192 in
set_option maxHeartbeats 50000000 in
/-- On every device, from any memory with zero counters: every weakly fair execution of the reference's @main terminates
    with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v87).trans (line_v87 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RunS

end
-- ==== Proof.Spec.lean ====
/-
  The network the two programs compute, one dense layer at a time, as functions of whole arrays read index by
  index over the extended reals. A graph-convolution layer is a dense map followed by the normalised
  gather / scatter-add over the edges; the aggregation is the same host text in both programs, so only the
  dense maps are named here:

  * `dense1 x w`   — row `r` of the features against column `j` of the first weight: `∑ k, x[r,k] · w[k,j]`;
  * `denseRelu a b w` — the next layer's input is `max (a[r,k] + b[k]) 0` (bias, then ReLU), again against a column
    of the weight;
  * `logits a b w c` — the last layer without ReLU, `(∑ k, (a[r,k] + b[k]) · w[k,j]) + c[j]`;
  * `logSoftmax z`  — per row: subtract the row's maximum, then subtract the logarithm of the row's sum of
    exponentials.

  The bias and the class offset are read as one-row matrices (row 0), the form both programs hand them on in.
-/
import Idealize.ShloMosaic.PureOps.Ideal
import Idealize.ShloMosaic.Lib.ValueIdx

noncomputable section

open scoped BigOperators

namespace Cert.Spec

open Idealize.ShloMosaic Idealize.ShloMosaic.ValueIdx

/-- The first dense map: `[100000,128] · [128,16]`. -/
def dense1 (x : FVec Ideal ⟨2, ![100000, 128]⟩ .f32) (w : FVec Ideal ⟨2, ![128, 16]⟩ .f32) :
    FVec Ideal ⟨2, ![100000, 16]⟩ .f32 :=
  fun i => ∑ k : Fin 128, x (ix2 (i 0) k) * w (ix2 k (i 1))

/-- Bias then ReLU at one entry: `max (a[r,k] + b[0,k]) 0`, the zero kept as its word. -/
def act (a : FVec Ideal ⟨2, ![100000, 16]⟩ .f32) (b : FVec Ideal ⟨2, ![1, 16]⟩ .f32) (r : Fin 100000) (k : Fin 16) : EReal :=
  max (a (ix2 r k) + b (ix2 (0 : Fin 1) k)) (Ideal.ofBits .f32 0x00000000#32)

/-- A middle dense map: bias, ReLU, then `[100000,16] · [16,16]`. -/
def denseRelu (a : FVec Ideal ⟨2, ![100000, 16]⟩ .f32) (b : FVec Ideal ⟨2, ![1, 16]⟩ .f32) (w : FVec Ideal ⟨2, ![16, 16]⟩ .f32) :
    FVec Ideal ⟨2, ![100000, 16]⟩ .f32 :=
  fun i => ∑ k : Fin 16, act a b (i 0) k * w (ix2 k (i 1))

/-- The class scores of node `r`: bias (no ReLU), `[100000,16] · [16,10]`, plus the class offset. -/
def logits (a : FVec Ideal ⟨2, ![100000, 16]⟩ .f32) (b : FVec Ideal ⟨2, ![1, 16]⟩ .f32) (w : FVec Ideal ⟨2, ![16, 10]⟩ .f32)
    (c : FVec Ideal ⟨2, ![1, 10]⟩ .f32) (r : Fin 100000) (j : Fin 10) : EReal :=
  (∑ k : Fin 16, (a (ix2 r k) + b (ix2 (0 : Fin 1) k)) * w (ix2 k j)) + c (ix2 (0 : Fin 1) j)

/-- A row's largest score, folded from `-∞` (kept as its word). -/
def rowMax (z : Fin 100000 → Fin 10 → EReal) (r : Fin 100000) : EReal :=
  (Finset.univ : Finset (Fin 10)).fold max (Ideal.ofBits .f32 0xFF800000#32) (z r)

/-- A score less its row's largest. -/
def shifted (z : Fin 100000 → Fin 10 → EReal) (r : Fin 100000) (j : Fin 10) : EReal := z r j - rowMax z r

/-- The log-softmax of the rows of `z`. -/
def logSoftmax (z : Fin 100000 → Fin 10 → EReal) : FVec Ideal ⟨2, ![100000, 10]⟩ .f32 :=
  fun i => shifted z (i 0) (i 1) - Ideal.log (∑ j : Fin 10, Ideal.exp (shifted z (i 0) j))

/-- The whole last layer. -/
def classify (a : FVec Ideal ⟨2, ![100000, 16]⟩ .f32) (b : FVec Ideal ⟨2, ![1, 16]⟩ .f32) (w : FVec Ideal ⟨2, ![16, 10]⟩ .f32)
    (c : FVec Ideal ⟨2, ![1, 10]⟩ .f32) : FVec Ideal ⟨2, ![100000, 10]⟩ .f32 :=
  logSoftmax (logits a b w c)

end Cert.Spec

end
-- ==== Proof.Region0.lean ====
import proofs.«150970_j10299331576450_1_alg».proof.Proof.Gen.KernelIdeal.Frame
import proofs.«150970_j10299331576450_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-! ## The product's index maps, axis by axis -/

/-- The left operand is read at the result's row. -/
theorem lhs_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
/-- The left operand's column is the contracted index. -/
theorem lhs_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
/-- The right operand's row is the contracted index. -/
theorem rhs_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
/-- The right operand is read at the result's column. -/
theorem rhs_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-! ## The body's payload at an entry -/

/-- Entry `(r, j)` of the body's product of a row block `x0` with the weight `x1`: `∑ k, x0[r,k] · x1[k,j]`
    (the narrowing of the operands is the identity on the extended reals, the accumulator is zero). -/
theorem pay_apply (x0 : Vec Ideal S10000x128 .f32) (x1 : Vec Ideal S128x16 .f32) (j : S10000x16.Idx) :
    k0_pay1 (F := Ideal) x0 x1 j = ∑ k : Fin 128, (x0 (ix2 (j 0) k) : EReal) * (x1 (ix2 k (j 1)) : EReal) := by
  unfold k0_pay1
  simp only [matmul]
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx j ((contrEquiv1 dot_S10000x128_S128x16_S10000x16_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S10000x128_S128x16_S10000x16_1_0_0_1_n_n.rhsIdx j ((contrEquiv1 dot_S10000x128_S128x16_S10000x16_1_0_0_1_n_n 128 rfl rfl).symm k) = ix2 k (j 1) := funext fun a => Fin.ext (by
    match a with
    | ⟨0, _⟩ => exact (rhs_0 _ _).trans hk
    | ⟨1, _⟩ => exact rhs_1 _ _)
  rw [el, er]
  rfl

/-! ## The grid's index maps -/

/-- Over the ten points: the feature block moves with the result block down the rows, at column block 0; the weight
    is always its one block; the result's blocks are the ten row blocks. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-! ## The input blocks at an entry -/

/-- The feature block at point `t` is rows `10000·b … 10000·b + 9999` of the features, `b` the block's index. -/
theorem xblk_apply (c : Dev nD) (t : Fin cfg0.N) (x : S10000x128.Idx) (j : S100000x128.Idx)
    (h0 : (j 0).val = win0_0.index t 0 * 10000 + (x 0).val) (h1 : (j 1).val = win0_0.index t 1 * 128 + (x 1).val) :
    (iblk0 V c 0 t : Vec Ideal S10000x128 .f32) x = (V c main_arg0 : S100000x128.Idx → EReal) j := by
  unfold iblk0
  rw [View.read_apply]
  show V c main_arg0 _ = V c main_arg0 _
  congr 1
  funext a
  apply Fin.ext
  match a with
  | ⟨0, _⟩ => show win0_0.index t 0 * 10000 + 1 * (x 0).val = (j 0).val; omega
  | ⟨1, _⟩ => show win0_0.index t 1 * 128 + 1 * (x 1).val = (j 1).val; omega

/-- The weight block at any point is the whole weight. -/
theorem wblk_apply (c : Dev nD) (t : Fin cfg0.N) (x : S128x16.Idx) (j : S128x16.Idx)
    (h0 : (j 0).val = win0_1.index t 0 * 128 + (x 0).val) (h1 : (j 1).val = win0_1.index t 1 * 16 + (x 1).val) :
    (iblk0 V c 1 t : Vec Ideal S128x16 .f32) x = (V c main_arg2 : S128x16.Idx → EReal) j := by
  unfold iblk0
  rw [View.read_apply]
  show V c main_arg2 _ = V c main_arg2 _
  congr 1
  funext a
  apply Fin.ext
  match a with
  | ⟨0, _⟩ => show win0_1.index t 0 * 128 + 1 * (x 0).val = (j 0).val; omega
  | ⟨1, _⟩ => show win0_1.index t 1 * 16 + 1 * (x 1).val = (j 1).val; omega

/-! ## What a point writes back, and the array -/

/-- Point `t` writes back block `t` of the dense map of the two argument arrays. -/
theorem flushed_eq (c : Dev nD) (t : Fin cfg0.N) :
    (dat0 V c).flushed 2 t = ((cfg0.win 2).blk t).view.read (Elt Ideal) (Cert.Spec.dense1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨e0, e1, e2, e3, e4, e5⟩ := idx_facts t
  funext y
  refine (pay_apply (iblk0 V c 0 t) (iblk0 V c 1 t) y).trans ?_
  show _ = Cert.Spec.dense1 (V c main_arg0) (V c main_arg2) (((cfg0.win 2).blk t).view.emb y)
  unfold Cert.Spec.dense1
  refine Finset.sum_congr rfl fun k _ => ?_
  have r0 : ((((cfg0.win 2).blk t).view.emb y) 0).val = win0_2.index t 0 * 10000 + 1 * (y 0).val := rfl
  have r1 : ((((cfg0.win 2).blk t).view.emb y) 1).val = win0_2.index t 1 * 16 + 1 * (y 1).val := rfl
  have hx0 : ((ix2 ((((cfg0.win 2).blk t).view.emb y) 0) k : S100000x128.Idx) 0).val = win0_0.index t 0 * 10000 + ((ix2 (y 0) k : S10000x128.Idx) 0).val := by
    show ((((cfg0.win 2).blk t).view.emb y) 0).val = win0_0.index t 0 * 10000 + (y 0).val
    rw [r0, e0, Nat.one_mul]
  have hx1 : ((ix2 ((((cfg0.win 2).blk t).view.emb y) 0) k : S100000x128.Idx) 1).val = win0_0.index t 1 * 128 + ((ix2 (y 0) k : S10000x128.Idx) 1).val := by
    show k.val = win0_0.index t 1 * 128 + k.val
    rw [e1, Nat.zero_mul, Nat.zero_add]
  have hw0 : ((ix2 k ((((cfg0.win 2).blk t).view.emb y) 1) : S128x16.Idx) 0).val = win0_1.index t 0 * 128 + ((ix2 k (y 1) : S128x16.Idx) 0).val := by
    show k.val = win0_1.index t 0 * 128 + k.val
    rw [e2, Nat.zero_mul, Nat.zero_add]
  have hw1 : ((ix2 k ((((cfg0.win 2).blk t).view.emb y) 1) : S128x16.Idx) 1).val = win0_1.index t 1 * 16 + ((ix2 k (y 1) : S128x16.Idx) 1).val := by
    show ((((cfg0.win 2).blk t).view.emb y) 1).val = win0_1.index t 1 * 16 + (y 1).val
    rw [r1, e3, e4, Nat.zero_mul, Nat.one_mul]
  exact congrArg₂ (fun a b : EReal => a * b) (xblk_apply V c t _ _ hx0 hx1) (wblk_apply V c t _ _ hw0 hw1)

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Row `r` of the result lies in the block of the point whose block index is `r / 10000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- After the first launch the result array is the first dense map of the two argument arrays as the launch finds them. -/
theorem final (c : Dev nD) :
    (dat0 V c).arrAt 2 cfg0.N = Cert.Spec.dense1 (V c main_arg0) (V c main_arg2) := by
  exact (dat0 V c).arrAt_eq_of_cover 2 _ (fun t _ => flushed_eq V c t) cover

end Cert.KernelIdeal.Dense0

end
-- ==== Proof.Region1.lean ====
import proofs.«150970_j10299331576450_1_alg».proof.Proof.Gen.KernelIdeal.Frame
import proofs.«150970_j10299331576450_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  A middle launch: bias, ReLU and the [16,16] matrix product over row blocks of 25000 nodes.
  Point `t` of the grid of 4 reads rows `25000 t … 25000 t + 24999` of the aggregate, the whole one-row bias and the whole
  weight, and writes the same rows of the result; every row is in exactly one block, so the result array is the middle
  dense map of the three arrays as the launch finds them.
-/
namespace Cert.KernelIdeal.Dense1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The contraction's operand indices -/

theorem lhs_0 (i : S25000x16.Idx) (q : dot_S25000x16_S16x16_S25000x16_1_0_0_1_n_n.contr.Idx) :
    (dot_S25000x16_S16x16_S25000x16_1_0_0_1_n_n.lhsIdx i q 0).val = (i 0).val := by
  unfold DotDims.lhsIdx
  rw [dif_neg (show ¬(0 : Fin S25000x16.rank) ∈ dot_S25000x16_S16x16_S25000x16_1_0_0_1_n_n.lhsBatch by decide), dif_pos (show (0 : Fin S25000x16.rank) ∈ dot_S25000x16_S16x16_S25000x16_1_0_0_1_n_n.lhsNonContracting by decide)]
  rfl
theorem lhs_1 (i : S25000x16.Idx) (q : dot_S25000x16_S16x16_S25000x16_1_0_0_1_n_n.contr.Idx) :
    (dot_S25000x16_S16x16_S25000x16_1_0_0_1_n_n.lhsIdx i q 1).val = (q ⟨0, by decide⟩).val :=
  dot_S25000x16_S16x16_S25000x16_1_0_0_1_n_n.lhsIdx_val_of_single rfl i q
theorem rhs_0 (i : S25000x16.Idx) (q : dot_S25000x16_S16x16_S25000x16_1_0_0_1_n_n.contr.Idx) :
    (dot_S25000x16_S16x16_S25000x16_1_0_0_1_n_n.rhsIdx i q 0).val = (q ⟨0, by decide⟩).val :=
  dot_S25000x16_S16x16_S25000x16_1_0_0_1_n_n.rhsIdx_val_of_single rfl i q
theorem rhs_1 (i : S25000x16.Idx) (q : dot_S25000x16_S16x16_S25000x16_1_0_0_1_n_n.contr.Idx) :
    (dot_S25000x16_S16x16_S25000x16_1_0_0_1_n_n.rhsIdx i q 1).val = (i 1).val := by
  unfold DotDims.rhsIdx
  rw [dif_neg (show ¬(1 : Fin S16x16.rank) ∈ dot_S25000x16_S16x16_S25000x16_1_0_0_1_n_n.rhsBatch by decide), dif_pos (show (1 : Fin S16x16.rank) ∈ dot_S25000x16_S16x16_S25000x16_1_0_0_1_n_n.rhsNonContracting by decide)]
  rfl

/-! ## The body's stored value at an entry -/

/-- The one-row bias broadcast down the rows reads its row 0. -/
theorem bias_apply (x1 : Vec Ideal S1x16 .f32) (p : Fin 25000) (k : Fin 16) :
    broadcastTo S25000x16 x1 broadcasts_S1x16_S25000x16 (ix2 p k) = x1 (ix2 (0 : Fin 1) k) :=
  broadcastTo_apply x1 broadcasts_S1x16_S25000x16 (ix2 p k) (ix2 (0 : Fin 1) k) (fun a => by
    match a with
    | ⟨0, _⟩ => show (0 : Nat) = if (1 : Nat) = 1 then 0 else p.val; rw [if_pos rfl]
    | ⟨1, _⟩ => show k.val = if (16 : Nat) = 1 then 0 else k.val; rw [if_neg (by decide)])

/-- Entry (p, q) of what a point stores: the ReLU of its block's row p plus the bias, against column q of the weight. -/
theorem pay_apply (x0 : Vec Ideal S25000x16 .f32) (x1 : Vec Ideal S1x16 .f32) (x2 : Vec Ideal S16x16 .f32) (j : S25000x16.Idx) :
    k1_pay1 (F := Ideal) x0 x1 x2 j
      = ∑ k : Fin 16, max (x0 (ix2 (j 0) k) + x1 (ix2 (0 : Fin 1) k)) (Ideal.ofBits .f32 0x00000000#32) * x2 (ix2 k (j 1)) := by
  unfold k1_pay1
  simp only [matmul]
  rw [Ideal.matmul_constant_zero_apply, ← Equiv.sum_comp (contrEquiv1 dot_S25000x16_S16x16_S25000x16_1_0_0_1_n_n 16 rfl rfl).symm]
  refine Finset.sum_congr rfl fun k _ => ?_
  have hk := contrEquiv1_symm_val dot_S25000x16_S16x16_S25000x16_1_0_0_1_n_n 16 rfl rfl k
  have el : dot_S25000x16_S16x16_S25000x16_1_0_0_1_n_n.lhsIdx j ((contrEquiv1 dot_S25000x16_S16x16_S25000x16_1_0_0_1_n_n 16 rfl rfl).symm k) = ix2 (j 0) k := funext fun a => Fin.ext (by
    match a with
    | ⟨0, _⟩ => exact lhs_0 _ _
    | ⟨1, _⟩ => exact (lhs_1 _ _).trans hk)
  have er : dot_S25000x16_S16x16_S25000x16_1_0_0_1_n_n.rhsIdx j ((contrEquiv1 dot_S25000x16_S16x16_S25000x16_1_0_0_1_n_n 16 rfl rfl).symm k) = ix2 k (j 1) := funext fun a => Fin.ext (by
    match a with
    | ⟨0, _⟩ => exact (rhs_0 _ _).trans hk
    | ⟨1, _⟩ => exact rhs_1 _ _)
  rw [el, er, shapeCast_self, shapeCast_self]
  exact congrArg (fun z => max (x0 (ix2 (j 0) k) + z) (Ideal.ofBits .f32 0x00000000#32) * x2 (ix2 k (j 1))) (bias_apply x1 (j 0) k)

/-! ## The windows' blocks as rows of their arrays -/

/-- The printed index maps over the grid: the aggregate's and the result's block move together down the rows, the bias and
    the weight stay. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 3 :=
  (by decide +kernel : ∀ t : Fin grid1.N, _)

/-- Every block of rows is some point's. -/
theorem idx_onto : ∀ q0 : Fin 4, ∃ t : Fin cfg1.N, win1_3.index t = ![q0.val, 0] :=
  (by decide +kernel : ∀ q0 : Fin 4, ∃ t : Fin grid1.N, win1_3.index t = ![q0.val, 0])

theorem blk0_apply (c : Dev nD) (t : Fin cfg1.N) (x : S25000x16.Idx) (j : S100000x16.Idx)
    (h0 : (j 0).val = win1_3.index t (0 : Fin 2) * 25000 + (x 0).val) (h1 : (j 1).val = (x 1).val) :
    (iblk1 V c 0 t : Vec Ideal S25000x16 .f32) x = (V c main_v43 : S100000x16.Idx → EReal) j := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 25000 + 1 * (x 0).val = (j 0).val; rw [h0, e0]; omega
  | ⟨1, _⟩ => show win1_0.index t (1 : Fin 2) * 16 + 1 * (x 1).val = (j 1).val; rw [h1, e1]; omega

theorem blk1_apply (c : Dev nD) (t : Fin cfg1.N) (x : S1x16.Idx) :
    (iblk1 V c 1 t : Vec Ideal S1x16 .f32) x = (V c main_v44 : S1x16.Idx → EReal) x := by
  obtain ⟨-, -, e0, e1, -⟩ := idx_facts t
  unfold iblk1
  rw [View.read_apply]
  show V c main_v44 _ = V c main_v44 _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 16 + 1 * (x 1).val = (x 1).val; rw [e1]; omega

theorem blk2_apply (c : Dev nD) (t : Fin cfg1.N) (x : S16x16.Idx) :
    (iblk1 V c 2 t : Vec Ideal S16x16 .f32) x = (V c main_arg4 : S16x16.Idx → EReal) x := by
  obtain ⟨-, -, -, -, e0, e1, -⟩ := idx_facts t
  unfold iblk1
  rw [View.read_apply]
  show V c main_arg4 _ = V c main_arg4 _
  congr 1
  funext a
  apply Fin.ext
  match a with
  | ⟨0, _⟩ => show win1_2.index t (0 : Fin 2) * 16 + 1 * (x 0).val = (x 0).val; rw [e0]; omega
  | ⟨1, _⟩ => show win1_2.index t (1 : Fin 2) * 16 + 1 * (x 1).val = (x 1).val; rw [e1]; omega

/-! ## What a point writes back, the cover, the array -/

/-- Point `t` writes back block `t` of the middle dense map of the arrays as the launch finds them. -/
theorem flushed_eq (c : Dev nD) (t : Fin cfg1.N) :
    (dat1 V c).flushed 3 t = ((cfg1.win 3).blk t).view.read (Elt Ideal)
      (Cert.Spec.denseRelu (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S25000x16) hz, View.ld_unit_zero (S := S1x16) hz, View.ld_unit_zero (S := S16x16) hz]
  funext y
  refine (pay_apply (iblk1 V c 0 t) (iblk1 V c 1 t) (iblk1 V c 2 t) y).trans ?_
  show _ = ∑ k : Fin 16, Cert.Spec.act (V c main_v43) (V c main_v44) ((((cfg1.win 3).blk t).view.emb y) 0) k
      * (V c main_arg4 : S16x16.Idx → EReal) (ix2 k ((((cfg1.win 3).blk t).view.emb y) 1))
  refine Finset.sum_congr rfl fun k _ => ?_
  unfold Cert.Spec.act
  have h0 : ((((cfg1.win 3).blk t).view.emb y) 0).val = win1_3.index t (0 : Fin 2) * 25000 + (y 0).val := by
    show win1_3.index t (0 : Fin 2) * 25000 + 1 * (y 0).val = _; omega
  rw [blk0_apply V c t (ix2 (y 0) k) (ix2 ((((cfg1.win 3).blk t).view.emb y) 0) k) h0 rfl,
    blk1_apply V c t (ix2 (0 : Fin 1) k),
    blk2_apply V c t (ix2 k (y 1))]
  obtain ⟨-, -, -, -, -, -, e1, -⟩ := idx_facts t
  have hc : (ix2 k (y 1) : S16x16.Idx) = ix2 k ((((cfg1.win 3).blk t).view.emb y) 1) := by
    funext a
    apply Fin.ext
    match a with
    | ⟨0, _⟩ => rfl
    | ⟨1, _⟩ => show (y 1).val = win1_3.index t (1 : Fin 2) * 16 + 1 * (y 1).val; rw [e1]; omega
  rw [hc]
  rfl

/-- An index of the result array is in point `t`'s block iff each coordinate is in the block's range on its axis. -/
theorem mem_blk (t : Fin cfg1.N) (i : S100000x16.Idx) :
    i ∈ ((cfg1.win 3).blk t).view.set ↔ ∀ a : Fin 2, win1_3.index t a * S25000x16.size a ≤ (i a).val ∧ (i a).val < win1_3.index t a * S25000x16.size a + S25000x16.size a := by
  show i ∈ ((View.whole main_v45).slice (win1_3.rect t)).set ↔ _
  rw [View.set_slice_whole, Rect.mem_set_unit]
  exact Iff.rfl

/-- Row `r` lies in the block of point `r / 25000`. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := idx_onto ⟨(i 0).val / 25000, by omega⟩
  have q0 : win1_3.index t (0 : Fin 2) = (i 0).val / 25000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 25000 ≤ (i 0).val ∧ (i 0).val < win1_3.index t (0 : Fin 2) * 25000 + 25000; omega
  | ⟨1, _⟩ => show win1_3.index t (1 : Fin 2) * 16 ≤ (i 1).val ∧ (i 1).val < win1_3.index t (1 : Fin 2) * 16 + 16; omega

/-- After the launch the result array is the middle dense map of the aggregate, the one-row bias and the weight as the
    launch finds them. -/
theorem final (c : Dev nD) :
    (dat1 V c).arrAt 3 cfg1.N = Cert.Spec.denseRelu (V c main_v43) (V c main_v44) (V c main_arg4) :=
  (dat1 V c).arrAt_eq_of_cover 3 _ (fun t _ => flushed_eq V c t) (cover)

end Cert.KernelIdeal.Dense1

end
-- ==== Proof.Region2.lean ====
import proofs.«150970_j10299331576450_1_alg».proof.Proof.Gen.KernelIdeal.Frame
import proofs.«150970_j10299331576450_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  A middle launch: bias, ReLU and the [16,16] matrix product over row blocks of 25000 nodes.
  Point `t` of the grid of 4 reads rows `25000 t … 25000 t + 24999` of the aggregate, the whole one-row bias and the whole
  weight, and writes the same rows of the result; every row is in exactly one block, so the result array is the middle
  dense map of the three arrays as the launch finds them.
-/
namespace Cert.KernelIdeal.Dense2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The contraction's operand indices -/

theorem lhs_0 (i : S25000x16.Idx) (q : dot_S25000x16_S16x16_S25000x16_1_0_0_1_n_n.contr.Idx) :
    (dot_S25000x16_S16x16_S25000x16_1_0_0_1_n_n.lhsIdx i q 0).val = (i 0).val := by
  unfold DotDims.lhsIdx
  rw [dif_neg (show ¬(0 : Fin S25000x16.rank) ∈ dot_S25000x16_S16x16_S25000x16_1_0_0_1_n_n.lhsBatch by decide), dif_pos (show (0 : Fin S25000x16.rank) ∈ dot_S25000x16_S16x16_S25000x16_1_0_0_1_n_n.lhsNonContracting by decide)]
  rfl
theorem lhs_1 (i : S25000x16.Idx) (q : dot_S25000x16_S16x16_S25000x16_1_0_0_1_n_n.contr.Idx) :
    (dot_S25000x16_S16x16_S25000x16_1_0_0_1_n_n.lhsIdx i q 1).val = (q ⟨0, by decide⟩).val :=
  dot_S25000x16_S16x16_S25000x16_1_0_0_1_n_n.lhsIdx_val_of_single rfl i q
theorem rhs_0 (i : S25000x16.Idx) (q : dot_S25000x16_S16x16_S25000x16_1_0_0_1_n_n.contr.Idx) :
    (dot_S25000x16_S16x16_S25000x16_1_0_0_1_n_n.rhsIdx i q 0).val = (q ⟨0, by decide⟩).val :=
  dot_S25000x16_S16x16_S25000x16_1_0_0_1_n_n.rhsIdx_val_of_single rfl i q
theorem rhs_1 (i : S25000x16.Idx) (q : dot_S25000x16_S16x16_S25000x16_1_0_0_1_n_n.contr.Idx) :
    (dot_S25000x16_S16x16_S25000x16_1_0_0_1_n_n.rhsIdx i q 1).val = (i 1).val := by
  unfold DotDims.rhsIdx
  rw [dif_neg (show ¬(1 : Fin S16x16.rank) ∈ dot_S25000x16_S16x16_S25000x16_1_0_0_1_n_n.rhsBatch by decide), dif_pos (show (1 : Fin S16x16.rank) ∈ dot_S25000x16_S16x16_S25000x16_1_0_0_1_n_n.rhsNonContracting by decide)]
  rfl

/-! ## The body's stored value at an entry -/

/-- The one-row bias broadcast down the rows reads its row 0. -/
theorem bias_apply (x1 : Vec Ideal S1x16 .f32) (p : Fin 25000) (k : Fin 16) :
    broadcastTo S25000x16 x1 broadcasts_S1x16_S25000x16 (ix2 p k) = x1 (ix2 (0 : Fin 1) k) :=
  broadcastTo_apply x1 broadcasts_S1x16_S25000x16 (ix2 p k) (ix2 (0 : Fin 1) k) (fun a => by
    match a with
    | ⟨0, _⟩ => show (0 : Nat) = if (1 : Nat) = 1 then 0 else p.val; rw [if_pos rfl]
    | ⟨1, _⟩ => show k.val = if (16 : Nat) = 1 then 0 else k.val; rw [if_neg (by decide)])

/-- Entry (p, q) of what a point stores: the ReLU of its block's row p plus the bias, against column q of the weight. -/
theorem pay_apply (x0 : Vec Ideal S25000x16 .f32) (x1 : Vec Ideal S1x16 .f32) (x2 : Vec Ideal S16x16 .f32) (j : S25000x16.Idx) :
    k2_pay1 (F := Ideal) x0 x1 x2 j
      = ∑ k : Fin 16, max (x0 (ix2 (j 0) k) + x1 (ix2 (0 : Fin 1) k)) (Ideal.ofBits .f32 0x00000000#32) * x2 (ix2 k (j 1)) := by
  unfold k2_pay1
  simp only [matmul]
  rw [Ideal.matmul_constant_zero_apply, ← Equiv.sum_comp (contrEquiv1 dot_S25000x16_S16x16_S25000x16_1_0_0_1_n_n 16 rfl rfl).symm]
  refine Finset.sum_congr rfl fun k _ => ?_
  have hk := contrEquiv1_symm_val dot_S25000x16_S16x16_S25000x16_1_0_0_1_n_n 16 rfl rfl k
  have el : dot_S25000x16_S16x16_S25000x16_1_0_0_1_n_n.lhsIdx j ((contrEquiv1 dot_S25000x16_S16x16_S25000x16_1_0_0_1_n_n 16 rfl rfl).symm k) = ix2 (j 0) k := funext fun a => Fin.ext (by
    match a with
    | ⟨0, _⟩ => exact lhs_0 _ _
    | ⟨1, _⟩ => exact (lhs_1 _ _).trans hk)
  have er : dot_S25000x16_S16x16_S25000x16_1_0_0_1_n_n.rhsIdx j ((contrEquiv1 dot_S25000x16_S16x16_S25000x16_1_0_0_1_n_n 16 rfl rfl).symm k) = ix2 k (j 1) := funext fun a => Fin.ext (by
    match a with
    | ⟨0, _⟩ => exact (rhs_0 _ _).trans hk
    | ⟨1, _⟩ => exact rhs_1 _ _)
  rw [el, er, shapeCast_self, shapeCast_self]
  exact congrArg (fun z => max (x0 (ix2 (j 0) k) + z) (Ideal.ofBits .f32 0x00000000#32) * x2 (ix2 k (j 1))) (bias_apply x1 (j 0) k)

/-! ## The windows' blocks as rows of their arrays -/

/-- The printed index maps over the grid: the aggregate's and the result's block move together down the rows, the bias and
    the weight stay. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 3 :=
  (by decide +kernel : ∀ t : Fin grid2.N, _)

/-- Every block of rows is some point's. -/
theorem idx_onto : ∀ q0 : Fin 4, ∃ t : Fin cfg2.N, win2_3.index t = ![q0.val, 0] :=
  (by decide +kernel : ∀ q0 : Fin 4, ∃ t : Fin grid2.N, win2_3.index t = ![q0.val, 0])

theorem blk0_apply (c : Dev nD) (t : Fin cfg2.N) (x : S25000x16.Idx) (j : S100000x16.Idx)
    (h0 : (j 0).val = win2_3.index t (0 : Fin 2) * 25000 + (x 0).val) (h1 : (j 1).val = (x 1).val) :
    (iblk2 V c 0 t : Vec Ideal S25000x16 .f32) x = (V c main_v58 : S100000x16.Idx → EReal) j := by
  obtain ⟨e0, e1, -⟩ := idx_facts t
  unfold iblk2
  rw [View.read_apply]
  show V c main_v58 _ = V c main_v58 _
  congr 1
  funext a
  apply Fin.ext
  match a with
  | ⟨0, _⟩ => show win2_0.index t (0 : Fin 2) * 25000 + 1 * (x 0).val = (j 0).val; rw [h0, e0]; omega
  | ⟨1, _⟩ => show win2_0.index t (1 : Fin 2) * 16 + 1 * (x 1).val = (j 1).val; rw [h1, e1]; omega

theorem blk1_apply (c : Dev nD) (t : Fin cfg2.N) (x : S1x16.Idx) :
    (iblk2 V c 1 t : Vec Ideal S1x16 .f32) x = (V c main_v59 : S1x16.Idx → EReal) x := by
  obtain ⟨-, -, e0, e1, -⟩ := idx_facts t
  unfold iblk2
  rw [View.read_apply]
  show V c main_v59 _ = V c main_v59 _
  congr 1
  funext a
  apply Fin.ext
  match a with
  | ⟨0, _⟩ => show win2_1.index t (0 : Fin 2) * 1 + 1 * (x 0).val = (x 0).val; rw [e0]; omega
  | ⟨1, _⟩ => show win2_1.index t (1 : Fin 2) * 16 + 1 * (x 1).val = (x 1).val; rw [e1]; omega

theorem blk2_apply (c : Dev nD) (t : Fin cfg2.N) (x : S16x16.Idx) :
    (iblk2 V c 2 t : Vec Ideal S16x16 .f32) x = (V c main_arg6 : S16x16.Idx → EReal) x := by
  obtain ⟨-, -, -, -, e0, e1, -⟩ := idx_facts t
  unfold iblk2
  rw [View.read_apply]
  show V c main_arg6 _ = V c main_arg6 _
  congr 1
  funext a
  apply Fin.ext
  match a with
  | ⟨0, _⟩ => show win2_2.index t (0 : Fin 2) * 16 + 1 * (x 0).val = (x 0).val; rw [e0]; omega
  | ⟨1, _⟩ => show win2_2.index t (1 : Fin 2) * 16 + 1 * (x 1).val = (x 1).val; rw [e1]; omega

/-! ## What a point writes back, the cover, the array -/

/-- Point `t` writes back block `t` of the middle dense map of the arrays as the launch finds them. -/
theorem flushed_eq (c : Dev nD) (t : Fin cfg2.N) :
    (dat2 V c).flushed 3 t = ((cfg2.win 3).blk t).view.read (Elt Ideal)
      (Cert.Spec.denseRelu (V c main_v58) (V c main_v59) (V c main_arg6)) := by
  show (cfg2.win 3).cut (grid2.coords t) ((dat2 V c).after 3 t) = _
  rw [after2_3]
  unfold out2_3
  rw [View.canon_unit_zero hz]
  simp only [View.ld_unit_zero (S := S25000x16) hz, View.ld_unit_zero (S := S1x16) hz, View.ld_unit_zero (S := S16x16) hz]
  funext y
  refine (pay_apply (iblk2 V c 0 t) (iblk2 V c 1 t) (iblk2 V c 2 t) y).trans ?_
  show _ = ∑ k : Fin 16, Cert.Spec.act (V c main_v58) (V c main_v59) ((((cfg2.win 3).blk t).view.emb y) 0) k
      * (V c main_arg6 : S16x16.Idx → EReal) (ix2 k ((((cfg2.win 3).blk t).view.emb y) 1))
  refine Finset.sum_congr rfl fun k _ => ?_
  unfold Cert.Spec.act
  have h0 : ((((cfg2.win 3).blk t).view.emb y) 0).val = win2_3.index t (0 : Fin 2) * 25000 + (y 0).val := by
    show win2_3.index t (0 : Fin 2) * 25000 + 1 * (y 0).val = _; omega
  rw [blk0_apply V c t (ix2 (y 0) k) (ix2 ((((cfg2.win 3).blk t).view.emb y) 0) k) h0 rfl,
    blk1_apply V c t (ix2 (0 : Fin 1) k),
    blk2_apply V c t (ix2 k (y 1))]
  obtain ⟨-, -, -, -, -, -, e1, -⟩ := idx_facts t
  have hc : (ix2 k (y 1) : S16x16.Idx) = ix2 k ((((cfg2.win 3).blk t).view.emb y) 1) := by
    funext a
    apply Fin.ext
    match a with
    | ⟨0, _⟩ => rfl
    | ⟨1, _⟩ => show (y 1).val = win2_3.index t (1 : Fin 2) * 16 + 1 * (y 1).val; rw [e1]; omega
  rw [hc]
  rfl

/-- An index of the result array is in point `t`'s block iff each coordinate is in the block's range on its axis. -/
theorem mem_blk (t : Fin cfg2.N) (i : S100000x16.Idx) :
    i ∈ ((cfg2.win 3).blk t).view.set ↔ ∀ a : Fin 2, win2_3.index t a * S25000x16.size a ≤ (i a).val ∧ (i a).val < win2_3.index t a * S25000x16.size a + S25000x16.size a := by
  show i ∈ ((View.whole main_v60).slice (win2_3.rect t)).set ↔ _
  rw [View.set_slice_whole, Rect.mem_set_unit]
  exact Iff.rfl

/-- Row `r` lies in the block of point `r / 25000`. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ := idx_onto ⟨(i 0).val / 25000, by omega⟩
  have q0 : win2_3.index t (0 : Fin 2) = (i 0).val / 25000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 25000 ≤ (i 0).val ∧ (i 0).val < win2_3.index t (0 : Fin 2) * 25000 + 25000; omega
  | ⟨1, _⟩ => show win2_3.index t (1 : Fin 2) * 16 ≤ (i 1).val ∧ (i 1).val < win2_3.index t (1 : Fin 2) * 16 + 16; omega

/-- After the launch the result array is the middle dense map of the aggregate, the one-row bias and the weight as the
    launch finds them. -/
theorem final (c : Dev nD) :
    (dat2 V c).arrAt 3 cfg2.N = Cert.Spec.denseRelu (V c main_v58) (V c main_v59) (V c main_arg6) :=
  (dat2 V c).arrAt_eq_of_cover 3 _ (fun t _ => flushed_eq V c t) (cover)

end Cert.KernelIdeal.Dense2

end
-- ==== Proof.Region3.lean ====
import proofs.«150970_j10299331576450_1_alg».proof.Proof.Gen.KernelIdeal.Frame
import proofs.«150970_j10299331576450_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Classify3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem lhs_0 (i : S25000x10.Idx) (q : dot_S25000x16_S16x10_S25000x10_1_0_0_1_n_n.contr.Idx) :
    (dot_S25000x16_S16x10_S25000x10_1_0_0_1_n_n.lhsIdx i q 0).val = (i 0).val := by
  unfold DotDims.lhsIdx
  rw [dif_neg (show ¬(0 : Fin S25000x16.rank) ∈ dot_S25000x16_S16x10_S25000x10_1_0_0_1_n_n.lhsBatch by decide), dif_pos (show (0 : Fin S25000x16.rank) ∈ dot_S25000x16_S16x10_S25000x10_1_0_0_1_n_n.lhsNonContracting by decide)]
  rfl
theorem lhs_1 (i : S25000x10.Idx) (q : dot_S25000x16_S16x10_S25000x10_1_0_0_1_n_n.contr.Idx) :
    (dot_S25000x16_S16x10_S25000x10_1_0_0_1_n_n.lhsIdx i q 1).val = (q ⟨0, by decide⟩).val :=
  dot_S25000x16_S16x10_S25000x10_1_0_0_1_n_n.lhsIdx_val_of_single rfl i q
theorem rhs_0 (i : S25000x10.Idx) (q : dot_S25000x16_S16x10_S25000x10_1_0_0_1_n_n.contr.Idx) :
    (dot_S25000x16_S16x10_S25000x10_1_0_0_1_n_n.rhsIdx i q 0).val = (q ⟨0, by decide⟩).val :=
  dot_S25000x16_S16x10_S25000x10_1_0_0_1_n_n.rhsIdx_val_of_single rfl i q
theorem rhs_1 (i : S25000x10.Idx) (q : dot_S25000x16_S16x10_S25000x10_1_0_0_1_n_n.contr.Idx) :
    (dot_S25000x16_S16x10_S25000x10_1_0_0_1_n_n.rhsIdx i q 1).val = (i 1).val := by
  unfold DotDims.rhsIdx
  rw [dif_neg (show ¬(1 : Fin S16x10.rank) ∈ dot_S25000x16_S16x10_S25000x10_1_0_0_1_n_n.rhsBatch by decide), dif_pos (show (1 : Fin S16x10.rank) ∈ dot_S25000x16_S16x10_S25000x10_1_0_0_1_n_n.rhsNonContracting by decide)]
  rfl

/-- The class scores of row `r` of a block: bias, the product with a column of the weight, the class offset. -/
def zb (x0 : Vec Ideal S25000x16 .f32) (x1 : Vec Ideal S1x16 .f32) (x2 : Vec Ideal S16x10 .f32) (x3 : Vec Ideal S1x10 .f32)
    (r : Fin 25000) (j : Fin 10) : EReal :=
  (∑ k : Fin 16, (x0 (ix2 r k) + x1 (ix2 (0 : Fin 1) k)) * x2 (ix2 k j)) + x3 (ix2 (0 : Fin 1) j)

/-- The body's scores, as the body computes them. -/
def lg (x0 : Vec Ideal S25000x16 .f32) (x1 : Vec Ideal S1x16 .f32) (x2 : Vec Ideal S16x10 .f32) (x3 : Vec Ideal S1x10 .f32) :
    FVec Ideal S25000x10 .f32 :=
  addf (matmul dot_S25000x16_S16x10_S25000x10_1_0_0_1_n_n none
      (truncf .bf16 (addf (shapeCast S25000x16 x0 shapeCasts_S25000x16_S25000x16)
        (broadcastTo S25000x16 (shapeCast S1x16 x1 shapeCasts_S1x16_S1x16) broadcasts_S1x16_S25000x16)) bitsLt_bf16_f32)
      (truncf .bf16 x2 bitsLt_bf16_f32) (constant S25000x10 .f32 0x00000000#32))
    (broadcastTo S25000x10 (shapeCast S1x10 x3 shapeCasts_S1x10_S1x10) broadcasts_S1x10_S25000x10)

theorem lg_apply (x0 : Vec Ideal S25000x16 .f32) (x1 : Vec Ideal S1x16 .f32) (x2 : Vec Ideal S16x10 .f32) (x3 : Vec Ideal S1x10 .f32)
    (i : S25000x10.Idx) : lg x0 x1 x2 x3 i = zb x0 x1 x2 x3 (i 0) (i 1) := by
  unfold lg zb
  rw [addf_apply]
  simp only [matmul]
  rw [Ideal.matmul_constant_zero_apply, ← Equiv.sum_comp (contrEquiv1 dot_S25000x16_S16x10_S25000x10_1_0_0_1_n_n 16 rfl rfl).symm]
  refine congrArg₂ (· + ·) (Finset.sum_congr rfl fun k _ => ?_) ?_
  · have hk := contrEquiv1_symm_val dot_S25000x16_S16x10_S25000x10_1_0_0_1_n_n 16 rfl rfl k
    have el : dot_S25000x16_S16x10_S25000x10_1_0_0_1_n_n.lhsIdx i ((contrEquiv1 dot_S25000x16_S16x10_S25000x10_1_0_0_1_n_n 16 rfl rfl).symm k) = ix2 (n0 := 25000) (n1 := 16) (i 0) k := funext fun a => Fin.ext (by
      match a with
      | ⟨0, _⟩ => exact lhs_0 _ _
      | ⟨1, _⟩ => exact (lhs_1 _ _).trans hk)
    have er : dot_S25000x16_S16x10_S25000x10_1_0_0_1_n_n.rhsIdx i ((contrEquiv1 dot_S25000x16_S16x10_S25000x10_1_0_0_1_n_n 16 rfl rfl).symm k) = ix2 (n0 := 16) (n1 := 10) k (i 1) := funext fun a => Fin.ext (by
      match a with
      | ⟨0, _⟩ => exact (rhs_0 _ _).trans hk
      | ⟨1, _⟩ => exact rhs_1 _ _)
    rw [el, er]
    show (shapeCast S25000x16 x0 shapeCasts_S25000x16_S25000x16 (ix2 (n0 := 25000) (n1 := 16) (i 0) k)
        + broadcastTo S25000x16 (shapeCast S1x16 x1 shapeCasts_S1x16_S1x16) broadcasts_S1x16_S25000x16 (ix2 (n0 := 25000) (n1 := 16) (i 0) k))
      * x2 (ix2 (n0 := 16) (n1 := 10) k (i 1)) = _
    rw [shapeCast_self, shapeCast_self]
    refine congrArg (fun u => (x0 (ix2 (n0 := 25000) (n1 := 16) (i 0) k) + u) * x2 (ix2 (n0 := 16) (n1 := 10) k (i 1))) ?_
    refine broadcastTo_apply x1 broadcasts_S1x16_S25000x16 (ix2 (n0 := 25000) (n1 := 16) (i 0) k) (ix2 (0 : Fin 1) k) fun a => ?_
    match a with
    | ⟨0, _⟩ => show (0:Nat) = if (1:Nat) = 1 then 0 else _; rw [if_pos rfl]
    | ⟨1, _⟩ => show k.val = if (16:Nat) = 1 then 0 else k.val; rw [if_neg (by decide)]
  · rw [shapeCast_self]
    refine broadcastTo_apply x3 broadcasts_S1x10_S25000x10 i (ix2 (n0 := 1) (n1 := 10) (0 : Fin 1) (i 1)) fun a => ?_
    match a with
    | ⟨0, _⟩ => show (0:Nat) = if (1:Nat) = 1 then 0 else _; rw [if_pos rfl]
    | ⟨1, _⟩ => show (i 1).val = if (10:Nat) = 1 then 0 else (i 1).val; rw [if_neg (by decide)]

/-- A vector `[a]` cast to the column `[a, 1]` reads, at `(i, u)`, the operand at `i`. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The log-softmax of one row of scores: each score less the row's largest, less the logarithm of the sum of the
    exponentials of those differences. -/
def lsm (z : Fin 10 → EReal) (j : Fin 10) : EReal :=
  (z j - (Finset.univ : Finset (Fin 10)).fold max (Ideal.ofBits .f32 0xFF800000#32) z)
    - Ideal.log (∑ j' : Fin 10, Ideal.exp (z j' - (Finset.univ : Finset (Fin 10)).fold max (Ideal.ofBits .f32 0xFF800000#32) z))

/-- Each row's largest score, spread back over the row. -/
def mxB (Lg : FVec Ideal S25000x10 .f32) : FVec Ideal S25000x10 .f32 :=
  broadcastTo S25000x10 (shapeCast S25000x1 (multiReduction (F := Ideal) .maximumf [1] S25000 Lg 0xFF800000#32 reduces_S25000x10_S25000 (.inl rfl) rfl) shapeCasts_S25000_S25000x1) broadcasts_S25000x1_S25000x10

theorem mxB_apply (Lg : FVec Ideal S25000x10 .f32) (i : S25000x10.Idx) :
    mxB Lg i = (Finset.univ : Finset (Fin 10)).fold max (Ideal.ofBits .f32 0xFF800000#32) (fun j => Lg (ix2 (n0 := 25000) (n1 := 10) (i 0) j)) := by
  unfold mxB
  refine (broadcastTo_apply _ broadcasts_S25000x1_S25000x10 i (ix2 (n0 := 25000) (n1 := 1) (i 0) (0 : Fin 1)) fun a => ?_).trans ?_
  · match a with
    | ⟨0, _⟩ => show (i 0).val = if (25000:Nat) = 1 then 0 else (i 0).val; rw [if_neg (by decide)]
    | ⟨1, _⟩ => show (0:Nat) = if (1:Nat) = 1 then 0 else _; rw [if_pos rfl]
  refine (shapeCast_col_apply _ shapeCasts_S25000_S25000x1 (i 0) (0 : Fin 1)).trans ?_
  refine (Ideal.multiReduction_maximumf_single (φ := .f32) Lg 0xFF800000#32 reduces_S25000x10_S25000 (.inl rfl) rfl (ix1 (i 0))).trans ?_
  show (Finset.univ : Finset (Fin 10)).fold max (Ideal.ofBits .f32 0xFF800000#32) (Lg ∘ reduces_S25000x10_S25000.lift (ix1 (i 0))) = _
  refine congrArg (fun f => (Finset.univ : Finset (Fin 10)).fold max (Ideal.ofBits .f32 0xFF800000#32) f) (funext fun j => ?_)
  show Lg (reduces_S25000x10_S25000.lift (ix1 (i 0)) j) = Lg (ix2 (n0 := 25000) (n1 := 10) (i 0) j)
  refine congrArg Lg (funext fun a => Fin.ext ?_)
  match a with
  | ⟨0, _⟩ => rfl
  | ⟨1, _⟩ => rfl

/-- The scores less their row's largest. -/
def sh (Lg : FVec Ideal S25000x10 .f32) : FVec Ideal S25000x10 .f32 := subf Lg (mxB Lg)

theorem sh_apply (Lg : FVec Ideal S25000x10 .f32) (i : S25000x10.Idx) :
    sh Lg i = Lg i - (Finset.univ : Finset (Fin 10)).fold max (Ideal.ofBits .f32 0xFF800000#32) (fun j => Lg (ix2 (n0 := 25000) (n1 := 10) (i 0) j)) := by
  show Lg i - mxB Lg i = _
  rw [mxB_apply]

/-- The body's log-softmax of a block of scores, as the body computes it. -/
def sm (Lg : FVec Ideal S25000x10 .f32) : FVec Ideal S25000x10 .f32 :=
  subf (sh Lg) (broadcastTo S25000x10 (log (shapeCast S25000x1 (multiReduction (F := Ideal) .add [1] S25000 (exp (sh Lg)) 0x00000000#32 reduces_S25000x10_S25000 (.inl rfl) rfl) shapeCasts_S25000_S25000x1)) broadcasts_S25000x1_S25000x10)

/-- The body's payload is that log-softmax of those scores. -/
theorem pay_eq (x0 : Vec Ideal S25000x16 .f32) (x1 : Vec Ideal S1x16 .f32) (x2 : Vec Ideal S16x10 .f32) (x3 : Vec Ideal S1x10 .f32) :
    k3_pay1 x0 x1 x2 x3 = sm (lg x0 x1 x2 x3) := rfl

theorem lift_eq (r : Fin 25000) (k : Fin 10) :
    reduces_S25000x10_S25000.lift (ix1 r) k = ix2 (n0 := 25000) (n1 := 10) r k :=
  funext fun a => Fin.ext (by
    match a with
    | ⟨0, _⟩ => rfl
    | ⟨1, _⟩ => rfl)

/-- A logarithm at an entry is the logarithm of the entry. -/
theorem log_at {s : Shape} {φ : FTy} (v : FVec Ideal s φ) (i : s.Idx) : log v i = Ideal.log (v i) := rfl
/-- An exponential at an entry is the exponential of the entry. -/
theorem exp_at {s : Shape} {φ : FTy} (v : FVec Ideal s φ) (i : s.Idx) : exp v i = Ideal.exp (v i) := rfl

/-- Read at an entry, the body's log-softmax is the row's. -/
theorem sm_apply (Lg : FVec Ideal S25000x10 .f32) (i : S25000x10.Idx) :
    sm Lg i = lsm (fun j => Lg (ix2 (n0 := 25000) (n1 := 10) (i 0) j)) (i 1) := by
  unfold sm lsm
  refine (subf_apply _ _ i).trans ?_
  refine congrArg₂ (· - ·) ?_ ?_
  · rw [sh_apply]
    exact congrArg (fun u => u - (Finset.univ : Finset (Fin 10)).fold max (Ideal.ofBits .f32 0xFF800000#32) (fun j => Lg (ix2 (n0 := 25000) (n1 := 10) (i 0) j))) (congrArg Lg (eq_ix2 i))
  · refine (broadcastTo_apply _ broadcasts_S25000x1_S25000x10 i (ix2 (n0 := 25000) (n1 := 1) (i 0) (0 : Fin 1)) fun a => ?_).trans ?_
    · match a with
      | ⟨0, _⟩ => show (i 0).val = if (25000:Nat) = 1 then 0 else (i 0).val; rw [if_neg (by decide)]
      | ⟨1, _⟩ => show (0:Nat) = if (1:Nat) = 1 then 0 else _; rw [if_pos rfl]
    refine (log_at _ _).trans (congrArg Ideal.log ?_)
    refine (shapeCast_col_apply _ shapeCasts_S25000_S25000x1 (i 0) (0 : Fin 1)).trans ?_
    refine (Ideal.multiReduction_add_single (φ := .f32) (exp (sh Lg)) 0x00000000#32 reduces_S25000x10_S25000 (.inl rfl) rfl (ix1 (i 0))).trans ?_
    refine Finset.sum_congr rfl fun k _ => ?_
    refine (exp_at _ _).trans (congrArg Ideal.exp ?_)
    refine (congrArg (sh Lg) (lift_eq (i 0) k)).trans ?_
    exact sh_apply Lg (ix2 (n0 := 25000) (n1 := 10) (i 0) k)

/-- A row's log-softmax is the body's payload at an entry: the scores there are the block's. -/
theorem pay_apply (x0 : Vec Ideal S25000x16 .f32) (x1 : Vec Ideal S1x16 .f32) (x2 : Vec Ideal S16x10 .f32) (x3 : Vec Ideal S1x10 .f32)
    (j : S25000x10.Idx) : k3_pay1 x0 x1 x2 x3 j = lsm (zb x0 x1 x2 x3 (j 0)) (j 1) := by
  rw [pay_eq, sm_apply]
  exact congrArg (fun z => lsm z (j 1)) (funext fun j' => lg_apply x0 x1 x2 x3 (ix2 (n0 := 25000) (n1 := 10) (j 0) j'))

/-- The specification at an entry, as the log-softmax of that row's scores. -/
theorem classify_apply (a : FVec Ideal ⟨2, ![100000, 16]⟩ .f32) (b : FVec Ideal ⟨2, ![1, 16]⟩ .f32) (w : FVec Ideal ⟨2, ![16, 10]⟩ .f32)
    (c : FVec Ideal ⟨2, ![1, 10]⟩ .f32) (i : (⟨2, ![100000, 10]⟩ : Shape).Idx) :
    Cert.Spec.classify a b w c i = lsm (Cert.Spec.logits a b w c (i 0)) (i 1) := rfl

/-- The printed index maps, decided over the grid: the feature window moves with the result window along the rows,
    every other block index is zero, and the result's row-block index stays below four. -/
theorem idx_facts : ∀ t : Fin cfg3.N,
    win3_0.index t (0 : Fin 2) = win3_4.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) ≤ 3 ∧ win3_4.index t (1 : Fin 2) = 0 :=
  (by decide +kernel : ∀ t : Fin grid3.N, _)

/-- The feature block at an entry: the features at the block's row offset. -/
theorem iblk0_apply (c : Dev nD) (t : Fin cfg3.N) (x : S25000x16.Idx) (j : S100000x16.Idx)
    (h0 : (j 0).val = win3_4.index t (0 : Fin 2) * 25000 + (x 0).val) (h1 : (j 1).val = (x 1).val) :
    (iblk3 V c 0 t : Vec Ideal S25000x16 .f32) x = (V c main_v73 : S100000x16.Idx → EReal) j := by
  obtain ⟨e0, e1, -⟩ := idx_facts t
  unfold iblk3
  rw [View.read_apply]
  show V c main_v73 _ = V c main_v73 _
  congr 1
  funext a
  apply Fin.ext
  match a with
  | ⟨0, _⟩ => show win3_0.index t (0 : Fin 2) * 25000 + 1 * (x 0).val = (j 0).val; omega
  | ⟨1, _⟩ => show win3_0.index t (1 : Fin 2) * 16 + 1 * (x 1).val = (j 1).val; omega

/-- The bias block at an entry is the bias there (the window is the whole one-row array). -/
theorem iblk1_apply (c : Dev nD) (t : Fin cfg3.N) (x : S1x16.Idx) :
    (iblk3 V c 1 t : Vec Ideal S1x16 .f32) x = (V c main_v74 : S1x16.Idx → EReal) x := by
  obtain ⟨-, -, e0, e1, -⟩ := idx_facts t
  unfold iblk3
  rw [View.read_apply]
  show V c main_v74 _ = V c main_v74 _
  congr 1
  funext a
  apply Fin.ext
  match a with
  | ⟨0, _⟩ => show win3_1.index t (0 : Fin 2) * 1 + 1 * (x 0).val = (x 0).val; omega
  | ⟨1, _⟩ => show win3_1.index t (1 : Fin 2) * 16 + 1 * (x 1).val = (x 1).val; omega

/-- The weight block at an entry is the weight there (the window is the whole array). -/
theorem iblk2_apply (c : Dev nD) (t : Fin cfg3.N) (x : S16x10.Idx) :
    (iblk3 V c 2 t : Vec Ideal S16x10 .f32) x = (V c main_arg8 : S16x10.Idx → EReal) x := by
  obtain ⟨-, -, -, -, e0, e1, -⟩ := idx_facts t
  unfold iblk3
  rw [View.read_apply]
  show V c main_arg8 _ = V c main_arg8 _
  congr 1
  funext a
  apply Fin.ext
  match a with
  | ⟨0, _⟩ => show win3_2.index t (0 : Fin 2) * 16 + 1 * (x 0).val = (x 0).val; omega
  | ⟨1, _⟩ => show win3_2.index t (1 : Fin 2) * 10 + 1 * (x 1).val = (x 1).val; omega

/-- The class-offset block at an entry is the offset there (the window is the whole one-row array). -/
theorem iblk3_apply (c : Dev nD) (t : Fin cfg3.N) (x : S1x10.Idx) :
    (iblk3 V c 3 t : Vec Ideal S1x10 .f32) x = (V c main_v75 : S1x10.Idx → EReal) x := by
  obtain ⟨-, -, -, -, -, -, e0, e1, -⟩ := idx_facts t
  unfold iblk3
  rw [View.read_apply]
  show V c main_v75 _ = V c main_v75 _
  congr 1
  funext a
  apply Fin.ext
  match a with
  | ⟨0, _⟩ => show win3_3.index t (0 : Fin 2) * 1 + 1 * (x 0).val = (x 0).val; omega
  | ⟨1, _⟩ => show win3_3.index t (1 : Fin 2) * 10 + 1 * (x 1).val = (x 1).val; omega

/-- WHAT POINT `t` WRITES BACK is block `t` of the specification's array of the four arrays as the launch finds them. -/
theorem flushed_eq (c : Dev nD) (t : Fin cfg3.N) :
    (dat3 V c).flushed 4 t = ((cfg3.win 4).blk t).view.read (Elt Ideal)
      (Cert.Spec.classify (V c main_v73) (V c main_v74) (V c main_arg8) (V c main_v75)) := by
  show (cfg3.win 4).cut (grid3.coords t) ((dat3 V c).after 4 t) = _
  rw [after3_4]
  unfold out3_4
  rw [View.canon_unit_zero hz]
  simp only [View.ld_unit_zero (S := S25000x16) hz, View.ld_unit_zero (S := S1x16) hz, View.ld_unit_zero (S := S16x10) hz, View.ld_unit_zero (S := S1x10) hz]
  funext y
  refine (pay_apply (iblk3 V c 0 t) (iblk3 V c 1 t) (iblk3 V c 2 t) (iblk3 V c 3 t) y).trans ?_
  show _ = Cert.Spec.classify (V c main_v73) (V c main_v74) (V c main_arg8) (V c main_v75) (((cfg3.win 4).blk t).view.emb y)
  rw [classify_apply]
  obtain ⟨-, -, -, -, -, -, -, -, e8, e9⟩ := idx_facts t
  have hE0 : ((((cfg3.win 4).blk t).view.emb y) 0).val = win3_4.index t (0 : Fin 2) * 25000 + (y 0).val := by
    show win3_4.index t (0 : Fin 2) * 25000 + 1 * (y 0).val = _
    omega
  have hE1 : (((cfg3.win 4).blk t).view.emb y) 1 = y 1 := Fin.ext (by
    show win3_4.index t (1 : Fin 2) * 10 + 1 * (y 1).val = (y 1).val
    omega)
  refine congrArg₂ lsm (funext fun j' => ?_) hE1.symm
  unfold zb Cert.Spec.logits
  refine congrArg₂ (· + ·) (Finset.sum_congr rfl fun k _ => ?_) ?_
  · exact congrArg₂ (· * ·)
      (congrArg₂ (· + ·)
        (iblk0_apply V c t (ix2 (n0 := 25000) (n1 := 16) (y 0) k) (ix2 (n0 := 100000) (n1 := 16) ((((cfg3.win 4).blk t).view.emb y) 0) k) hE0 rfl)
        (iblk1_apply V c t (ix2 (n0 := 1) (n1 := 16) (0 : Fin 1) k)))
      (iblk2_apply V c t (ix2 (n0 := 16) (n1 := 10) k j'))
  · exact iblk3_apply V c t (ix2 (n0 := 1) (n1 := 10) (0 : Fin 1) j')

/-- An index of the result array is in point `t`'s block iff each coordinate is in the block's range on its axis. -/
theorem mem_blk (t : Fin cfg3.N) (i : S100000x10.Idx) :
    i ∈ ((cfg3.win 4).blk t).view.set ↔ ∀ a : Fin 2, win3_4.index t a * S25000x10.size a ≤ (i a).val ∧ (i a).val < win3_4.index t a * S25000x10.size a + S25000x10.size a := by
  show i ∈ ((View.whole main_v76).slice (win3_4.rect t)).set ↔ _
  rw [View.set_slice_whole, Rect.mem_set_unit]
  exact Iff.rfl

/-- Every row block of the result is some point's. -/
theorem idx_onto : ∀ q0 : Fin 4, ∃ t : Fin cfg3.N, win3_4.index t = ![q0.val, 0] :=
  (by decide +kernel : ∀ q0 : Fin 4, ∃ t : Fin grid3.N, win3_4.index t = ![q0.val, 0])

/-- The blocks written back cover the result array: row `r` lies in row block `r / 25000`. -/
theorem cover (i : S100000x10.Idx) :
    ∃ t : Fin cfg3.N, (cfg3.win 4).flush t = true ∧ i ∈ ((cfg3.win 4).blk t).view.set := by
  have hi0 : (i 0).val < 100000 := (i 0).isLt
  have hi1 : (i 1).val < 10 := (i 1).isLt
  obtain ⟨t, ht⟩ := idx_onto ⟨(i 0).val / 25000, by omega⟩
  have q0 : win3_4.index t (0 : Fin 2) = (i 0).val / 25000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 25000 ≤ (i 0).val ∧ (i 0).val < win3_4.index t (0 : Fin 2) * 25000 + 25000; omega
  | ⟨1, _⟩ => show win3_4.index t (1 : Fin 2) * 10 ≤ (i 1).val ∧ (i 1).val < win3_4.index t (1 : Fin 2) * 10 + 10; omega

/-- After the last launch the result array is the log-softmax of the class scores of the four arrays the launch reads. -/
theorem final (c : Dev nD) :
    (dat3 V c).arrAt 4 cfg3.N = Cert.Spec.classify (V c main_v73) (V c main_v74) (V c main_arg8) (V c main_v75) :=
  (dat3 V c).arrAt_eq_of_cover 4 _ (fun t _ => flushed_eq V c t) cover

end Cert.KernelIdeal.Classify3

end
-- ==== Proof.RefStages.lean ====
import proofs.«150970_j10299331576450_1_alg».proof.Proof.RefRun
import proofs.«150970_j10299331576450_1_alg».proof.Proof.RefRead
import proofs.«150970_j10299331576450_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.ReferenceIdeal.Gen Cert.ReferenceIdeal.ReadP Idealize.ShloMosaic Idealize.ShloMosaic.TcCoe Idealize.ShloMosaic.ValueIdx Idealize.SL.Sem

variable (x0 : (⟨S100000x128, .f32⟩ : BufTy).Contents (Elt Ideal)) (x1 : (⟨S2x3200000, .i32⟩ : BufTy).Contents (Elt Ideal))
  (x2 : (⟨S128x16, .f32⟩ : BufTy).Contents (Elt Ideal)) (x3 : (⟨S16, .f32⟩ : BufTy).Contents (Elt Ideal))
  (x4 : (⟨S16x16, .f32⟩ : BufTy).Contents (Elt Ideal)) (x5 : (⟨S16, .f32⟩ : BufTy).Contents (Elt Ideal))
  (x6 : (⟨S16x16, .f32⟩ : BufTy).Contents (Elt Ideal)) (x7 : (⟨S16, .f32⟩ : BufTy).Contents (Elt Ideal))
  (x8 : (⟨S16x10, .f32⟩ : BufTy).Contents (Elt Ideal)) (x9 : (⟨S10, .f32⟩ : BufTy).Contents (Elt Ideal))

/-- The reference's first matrix product is the first dense map. -/
theorem dense1_eq : val_main_v30 (F := Ideal) x0 x2 = Cert.Spec.dense1 x0 x2 := by
  funext i
  rw [val_main_v30_apply]
  show _ = ∑ k : Fin 128, x0 (ix2 (i 0) k) * x2 (ix2 k (i 1))
  refine Finset.sum_congr rfl fun k _ => ?_
  have hl : lidx_main_v30 i k = ix2 (i 0) k := funext fun a => Fin.ext (by match a with | ⟨0, _⟩ => rfl | ⟨1, _⟩ => rfl)
  have hr : ridx_main_v30 i k = ix2 k (i 1) := funext fun a => Fin.ext (by match a with | ⟨0, _⟩ => rfl | ⟨1, _⟩ => rfl)
  rw [hl, hr]
  rfl

/-- The reference's second product (of the ReLU of the first aggregate plus its bias) is the middle dense map of that aggregate. -/
theorem dense2_eq : val_main_v48 (F := Ideal) x0 x1 x2 x3 x4
    = Cert.Spec.denseRelu (val_main_v43 (F := Ideal) x0 x1 x2) (val_main_v44 (F := Ideal) x3) x4 := by
  funext i
  rw [val_main_v48_apply]
  show _ = ∑ k : Fin 16, Cert.Spec.act (val_main_v43 (F := Ideal) x0 x1 x2) (val_main_v44 (F := Ideal) x3) (i 0) k * x4 (ix2 k (i 1))
  refine Finset.sum_congr rfl fun k _ => ?_
  rw [val_main_v47_apply, val_main_v46_apply, val_main_v45_apply, val_main_call1_v0_apply, val_main_call1_cst_apply]
  have hb : idx_main_v45 (lidx_main_v48 i k) = ix2 (0 : Fin 1) k := funext fun a => Fin.ext (by match a with | ⟨0, _⟩ => rfl | ⟨1, _⟩ => rfl)
  have hl : lidx_main_v48 i k = ix2 (i 0) k := funext fun a => Fin.ext (by match a with | ⟨0, _⟩ => rfl | ⟨1, _⟩ => rfl)
  have hr : ridx_main_v48 i k = ix2 k (i 1) := funext fun a => Fin.ext (by match a with | ⟨0, _⟩ => rfl | ⟨1, _⟩ => rfl)
  rw [hb, hl, hr]
  rfl

/-- The same one layer on. -/
theorem dense3_eq : val_main_v66 (F := Ideal) x0 x1 x2 x3 x4 x5 x6
    = Cert.Spec.denseRelu (val_main_v61 (F := Ideal) x0 x1 x2 x3 x4) (val_main_v62 (F := Ideal) x5) x6 := by
  funext i
  rw [val_main_v66_apply]
  show _ = ∑ k : Fin 16, Cert.Spec.act (val_main_v61 (F := Ideal) x0 x1 x2 x3 x4) (val_main_v62 (F := Ideal) x5) (i 0) k * x6 (ix2 k (i 1))
  refine Finset.sum_congr rfl fun k _ => ?_
  rw [val_main_v65_apply, val_main_v64_apply, val_main_v63_apply, val_main_call2_v0_apply, val_main_call2_cst_apply]
  have hb : idx_main_v63 (lidx_main_v66 i k) = ix2 (0 : Fin 1) k := funext fun a => Fin.ext (by match a with | ⟨0, _⟩ => rfl | ⟨1, _⟩ => rfl)
  have hl : lidx_main_v66 i k = ix2 (i 0) k := funext fun a => Fin.ext (by match a with | ⟨0, _⟩ => rfl | ⟨1, _⟩ => rfl)
  have hr : ridx_main_v66 i k = ix2 k (i 1) := funext fun a => Fin.ext (by match a with | ⟨0, _⟩ => rfl | ⟨1, _⟩ => rfl)
  rw [hb, hl, hr]
  rfl

/-- The reference's class scores at an entry are the specification's: the bias row and the offset row are read at row zero. -/
theorem classify_eq_logits (i : S100000x10.Idx) :
    val_main_v86 (F := Ideal) x0 x1 x2 x3 x4 x5 x6 x7 x8 x9 i
      = Cert.Spec.logits (val_main_v79 (F := Ideal) x0 x1 x2 x3 x4 x5 x6) (val_main_v80 (F := Ideal) x7) x8 (val_main_v84 (F := Ideal) x9) (i 0) (i 1) := by
  rw [val_main_v86_apply, val_main_v83_apply, val_main_v85_apply]
  unfold Cert.Spec.logits
  refine congrArg₂ (· + ·) (Finset.sum_congr rfl fun k _ => ?_) ?_
  · rw [val_main_v82_apply, val_main_v81_apply]
    have e1 : lidx_main_v83 i k = ix2 (n0 := 100000) (n1 := 16) (i 0) k :=
      funext fun a => Fin.ext (by match a with | ⟨0, _⟩ => rfl | ⟨1, _⟩ => rfl)
    have e2 : idx_main_v81 (lidx_main_v83 i k) = ix2 (n0 := 1) (n1 := 16) (0 : Fin 1) k :=
      funext fun a => Fin.ext (by match a with | ⟨0, _⟩ => rfl | ⟨1, _⟩ => rfl)
    have e3 : ridx_main_v83 i k = ix2 (n0 := 16) (n1 := 10) k (i 1) :=
      funext fun a => Fin.ext (by match a with | ⟨0, _⟩ => rfl | ⟨1, _⟩ => rfl)
    rw [e2, e1, e3]
    rfl
  · have e4 : idx_main_v85 i = ix2 (n0 := 1) (n1 := 10) (0 : Fin 1) (i 1) :=
      funext fun a => Fin.ext (by match a with | ⟨0, _⟩ => rfl | ⟨1, _⟩ => rfl)
    rw [e4]

/-- The larger of a start value and a fold of maxima from that start value is the fold: the fold lies above its start. -/
theorem classify_eq_max_fold (b : EReal) (f : Fin 10 → EReal) :
    max b ((Finset.univ : Finset (Fin 10)).fold max b f) = (Finset.univ : Finset (Fin 10)).fold max b f :=
  max_eq_right ((Finset.le_fold_max b).mpr (Or.inl le_rfl))

/-- The index a row index becomes when a column is put back on the reduced axis. -/
theorem classify_eq_lift (h : S100000x10.Reduces [1] S100000) (r : S100000.Idx) (j : Fin 10) :
    h.lift r j = ix2 (n0 := 100000) (n1 := 10) (r 0) j :=
  funext fun a => Fin.ext (by match a with | ⟨0, _⟩ => rfl | ⟨1, _⟩ => rfl)

/-- The reference's score at a row index with a column put back is the specification's score of that row and column. -/
theorem classify_eq_row (h : S100000x10.Reduces [1] S100000) (r : S100000.Idx) (j : Fin 10) :
    val_main_v86 (F := Ideal) x0 x1 x2 x3 x4 x5 x6 x7 x8 x9 (h.lift r j) = (Cert.Spec.logits (val_main_v79 (F := Ideal) x0 x1 x2 x3 x4 x5 x6) (val_main_v80 (F := Ideal) x7) x8 (val_main_v84 (F := Ideal) x9)) (r 0) j := by
  rw [classify_eq_lift h r j]
  exact classify_eq_logits x0 x1 x2 x3 x4 x5 x6 x7 x8 x9 (ix2 (n0 := 100000) (n1 := 10) (r 0) j)

/-- The reference's row maximum (the larger of minus infinity and the fold from minus infinity) is the specification's. -/
theorem classify_eq_rowmax (r : S100000.Idx) :
    val_main_call3_v2 (F := Ideal) x0 x1 x2 x3 x4 x5 x6 x7 x8 x9 r
      = Cert.Spec.rowMax (Cert.Spec.logits (val_main_v79 (F := Ideal) x0 x1 x2 x3 x4 x5 x6) (val_main_v80 (F := Ideal) x7) x8 (val_main_v84 (F := Ideal) x9)) (r 0) := by
  have hR : S100000x10.Reduces [1] S100000 := by decide
  have hf : (val_main_v86 (F := Ideal) x0 x1 x2 x3 x4 x5 x6 x7 x8 x9 ∘ hR.lift r) = (Cert.Spec.logits (val_main_v79 (F := Ideal) x0 x1 x2 x3 x4 x5 x6) (val_main_v80 (F := Ideal) x7) x8 (val_main_v84 (F := Ideal) x9)) (r 0) := by
    funext j
    rw [Function.comp_apply]
    exact classify_eq_row x0 x1 x2 x3 x4 x5 x6 x7 x8 x9 hR r j
  rw [val_main_call3_v2_apply, val_main_call3_v1_apply, val_main_call3_cst_0_apply]
  unfold val_main_call3_v0 Cert.Spec.rowMax
  rw [Host.reduce_eq_fold_single FloatOps.maximumf _ _ reducesTo_S100000x10_S100000_d1 hR h_S_ r, hf,
    val_main_call3_cst_apply, Ideal.ofBits_def]
  exact classify_eq_max_fold (Ideal.ofBits .f32 0xFF800000#32) _

/-- The reference's scores less their row maximum are the specification's. -/
theorem classify_eq_shifted (i : S100000x10.Idx) :
    val_main_call3_v5 (F := Ideal) x0 x1 x2 x3 x4 x5 x6 x7 x8 x9 i
      = Cert.Spec.shifted (Cert.Spec.logits (val_main_v79 (F := Ideal) x0 x1 x2 x3 x4 x5 x6) (val_main_v80 (F := Ideal) x7) x8 (val_main_v84 (F := Ideal) x9)) (i 0) (i 1) := by
  rw [val_main_call3_v5_apply, val_main_call3_v4_apply, val_main_call3_v3_apply, classify_eq_rowmax, classify_eq_logits,
    Ideal.subf_def]
  unfold Cert.Spec.shifted
  rfl

/-- The reference's result is the log-softmax of the class scores of the third aggregate. -/
theorem classify_eq : val_main_v87 (F := Ideal) x0 x1 x2 x3 x4 x5 x6 x7 x8 x9
    = Cert.Spec.classify (val_main_v79 (F := Ideal) x0 x1 x2 x3 x4 x5 x6) (val_main_v80 (F := Ideal) x7) x8 (val_main_v84 (F := Ideal) x9) := by
  funext i
  rw [val_main_v87_apply, val_main_call3_v10_apply, val_main_call3_v9_apply, val_main_call3_v8_apply,
    val_main_call3_v7_apply, val_main_call3_cst_1_apply, classify_eq_shifted,
    Ideal.subf_def, Ideal.hostUnary_log_def, Ideal.ofBits_def, Ideal.ofBits_zero_f32, zero_add]
  unfold Cert.Spec.classify Cert.Spec.logSoftmax
  refine congrArg (fun u => Cert.Spec.shifted (Cert.Spec.logits (val_main_v79 (F := Ideal) x0 x1 x2 x3 x4 x5 x6) (val_main_v80 (F := Ideal) x7) x8 (val_main_v84 (F := Ideal) x9)) (i 0) (i 1) - Ideal.log u) (Finset.sum_congr rfl fun k _ => ?_)
  rw [val_main_call3_v6_apply, Ideal.hostUnary_exp_def, classify_eq_shifted]
  rfl

end Cert.ReferenceIdeal.Stages

end
-- ==== Proof.Chain.lean ====
/-
  The kernel program's result, read back through its four launches and the host stretches between them, is the
  reference's last stage applied to the arguments.

  Both programs build the same edge lists and the same edge weights from the edge array, and between two dense maps
  both run the same text: gather the rows at the edges' sources, scale by the edge weight, scatter-add into the
  edges' targets (`agg`). The kernel computes each dense map in a launch (the four modules before this one say what
  array each launch leaves); the reference computes it as a matrix product on the host (the stage lemmas say these are
  the same functions). So the two chains meet stage by stage:

    features · W1  →  agg  →  (+b1, ReLU) · W2  →  agg  →  (+b2, ReLU) · W3  →  agg  →  (+b3) · Wl + bl, log-softmax.

  What is left to say is bookkeeping: which buffer holds what at each boundary of the kernel program, and that a
  buffer nothing writes keeps its contents from one boundary to the next.
-/
import proofs.«150970_j10299331576450_1_alg».proof.Proof.Gen.KernelIdeal.Frame
import proofs.«150970_j10299331576450_1_alg».proof.Proof.RefRead
import proofs.«150970_j10299331576450_1_alg».proof.Proof.Spec
import proofs.«150970_j10299331576450_1_alg».proof.Proof.Region0
import proofs.«150970_j10299331576450_1_alg».proof.Proof.Region1
import proofs.«150970_j10299331576450_1_alg».proof.Proof.Region2
import proofs.«150970_j10299331576450_1_alg».proof.Proof.Region3
import proofs.«150970_j10299331576450_1_alg».proof.Proof.RefStages
import proofs.«150970_j10299331576450_1_alg».proof.Proof.Agg
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

/-! ## The kernel program's host stretches, read at a buffer -/

namespace Cert.KernelIdeal.Chain

open Cert.KernelIdeal Cert.KernelIdeal.Gen Idealize.ShloMosaic Idealize.ShloMosaic.TcCoe Idealize.SL.Sem
open Idealize.ShloMosaic.StableHlo (after after_cons after_nil)
open Idealize.ShloMosaic.StableHlo
open Cert.ReferenceIdeal.ReadP (val_main_v3 val_main_v6 val_main_v29 val_main_v30 val_main_v43 val_main_v44 val_main_v48 val_main_v61 val_main_v62 val_main_v66 val_main_v79 val_main_v80 val_main_v84 val_main_v87)
open Cert.ReferenceIdeal.Agg (agg)

section AnyValues

variable {F : FTy → Type} [FloatOps F]
variable (X : Valuation τ sig (Elt F))

set_option maxHeartbeats 1000000 in
/-- Each stretch between two launches leaves the aggregate of the launch's result in the next launch's first operand. -/
theorem h1_v43 : after hostOps1 X (Proc.devRef .tc main_v43)
    = agg (X (Proc.devRef .tc main_v30)) (X (Proc.devRef .tc main_v3)) (X (Proc.devRef .tc main_v6)) (X (Proc.devRef .tc main_v29)) := by
  dsimp only [hostOps1]; after_results <;> rfl
set_option maxHeartbeats 1000000 in
theorem h2_v58 : after hostOps2 X (Proc.devRef .tc main_v58)
    = agg (X (Proc.devRef .tc main_v45)) (X (Proc.devRef .tc main_v3)) (X (Proc.devRef .tc main_v6)) (X (Proc.devRef .tc main_v29)) := by
  dsimp only [hostOps2]; after_results <;> rfl
set_option maxHeartbeats 1000000 in
theorem h3_v73 : after hostOps3 X (Proc.devRef .tc main_v73)
    = agg (X (Proc.devRef .tc main_v60)) (X (Proc.devRef .tc main_v3)) (X (Proc.devRef .tc main_v6)) (X (Proc.devRef .tc main_v29)) := by
  dsimp only [hostOps3]; after_results <;> rfl

/-- … and the bias (the class offset) as one row in its operand. -/
theorem h1_v44 : after hostOps1 X (Proc.devRef .tc main_v44) = shapeCast S1x16 (X (Proc.devRef .tc main_arg3)) shapeCasts_S16_S1x16 := by
  dsimp only [hostOps1]; after_results <;> rfl
theorem h2_v59 : after hostOps2 X (Proc.devRef .tc main_v59) = shapeCast S1x16 (X (Proc.devRef .tc main_arg5)) shapeCasts_S16_S1x16 := by
  dsimp only [hostOps2]; after_results <;> rfl
theorem h3_v74 : after hostOps3 X (Proc.devRef .tc main_v74) = shapeCast S1x16 (X (Proc.devRef .tc main_arg7)) shapeCasts_S16_S1x16 := by
  dsimp only [hostOps3]; after_results <;> rfl
theorem h3_v75 : after hostOps3 X (Proc.devRef .tc main_v75) = shapeCast S1x10 (X (Proc.devRef .tc main_arg9)) shapeCasts_S10_S1x10 := by
  dsimp only [hostOps3]; after_results <;> rfl

/-- A buffer a stretch does not write keeps its contents through it: the edge lists, the edge weights and the later
    launches' arguments. -/
theorem h1_v3 : after hostOps1 X (Proc.devRef .tc main_v3) = X (Proc.devRef .tc main_v3) := by dsimp only [hostOps1]; after_results
theorem h1_v6 : after hostOps1 X (Proc.devRef .tc main_v6) = X (Proc.devRef .tc main_v6) := by dsimp only [hostOps1]; after_results
theorem h1_v29 : after hostOps1 X (Proc.devRef .tc main_v29) = X (Proc.devRef .tc main_v29) := by dsimp only [hostOps1]; after_results
theorem h1_arg4 : after hostOps1 X (Proc.devRef .tc main_arg4) = X (Proc.devRef .tc main_arg4) := by dsimp only [hostOps1]; after_results
theorem h1_arg5 : after hostOps1 X (Proc.devRef .tc main_arg5) = X (Proc.devRef .tc main_arg5) := by dsimp only [hostOps1]; after_results
theorem h1_arg6 : after hostOps1 X (Proc.devRef .tc main_arg6) = X (Proc.devRef .tc main_arg6) := by dsimp only [hostOps1]; after_results
theorem h1_arg7 : after hostOps1 X (Proc.devRef .tc main_arg7) = X (Proc.devRef .tc main_arg7) := by dsimp only [hostOps1]; after_results
theorem h1_arg8 : after hostOps1 X (Proc.devRef .tc main_arg8) = X (Proc.devRef .tc main_arg8) := by dsimp only [hostOps1]; after_results
theorem h1_arg9 : after hostOps1 X (Proc.devRef .tc main_arg9) = X (Proc.devRef .tc main_arg9) := by dsimp only [hostOps1]; after_results
theorem h2_v3 : after hostOps2 X (Proc.devRef .tc main_v3) = X (Proc.devRef .tc main_v3) := by dsimp only [hostOps2]; after_results
theorem h2_v6 : after hostOps2 X (Proc.devRef .tc main_v6) = X (Proc.devRef .tc main_v6) := by dsimp only [hostOps2]; after_results
theorem h2_v29 : after hostOps2 X (Proc.devRef .tc main_v29) = X (Proc.devRef .tc main_v29) := by dsimp only [hostOps2]; after_results
theorem h2_arg6 : after hostOps2 X (Proc.devRef .tc main_arg6) = X (Proc.devRef .tc main_arg6) := by dsimp only [hostOps2]; after_results
theorem h2_arg7 : after hostOps2 X (Proc.devRef .tc main_arg7) = X (Proc.devRef .tc main_arg7) := by dsimp only [hostOps2]; after_results
theorem h2_arg8 : after hostOps2 X (Proc.devRef .tc main_arg8) = X (Proc.devRef .tc main_arg8) := by dsimp only [hostOps2]; after_results
theorem h2_arg9 : after hostOps2 X (Proc.devRef .tc main_arg9) = X (Proc.devRef .tc main_arg9) := by dsimp only [hostOps2]; after_results
theorem h3_arg8 : after hostOps3 X (Proc.devRef .tc main_arg8) = X (Proc.devRef .tc main_arg8) := by dsimp only [hostOps3]; after_results

variable (m : (ℓ : Loc nD τ sig) → Buf (Elt F) ℓ) (ρ : Dev nD → PrngReg) (c : Dev nD)

/-! ## Up to the first launch -/

/-- Nothing before the first launch writes an argument. -/
theorem W3_arg0 : W3 m ρ c (Proc.devRef .tc main_arg0) = m ((c : Thread nD τ).loc main_arg0) := by
  dsimp only [W3, W2, W1, hostOps0, hostOps0_1, hostOps0_2]; after_results <;> rfl
theorem W3_arg2 : W3 m ρ c (Proc.devRef .tc main_arg2) = m ((c : Thread nD τ).loc main_arg2) := by
  dsimp only [W3, W2, W1, hostOps0, hostOps0_1, hostOps0_2]; after_results <;> rfl
theorem W3_arg3 : W3 m ρ c (Proc.devRef .tc main_arg3) = m ((c : Thread nD τ).loc main_arg3) := by
  dsimp only [W3, W2, W1, hostOps0, hostOps0_1, hostOps0_2]; after_results <;> rfl
theorem W3_arg4 : W3 m ρ c (Proc.devRef .tc main_arg4) = m ((c : Thread nD τ).loc main_arg4) := by
  dsimp only [W3, W2, W1, hostOps0, hostOps0_1, hostOps0_2]; after_results <;> rfl
theorem W3_arg5 : W3 m ρ c (Proc.devRef .tc main_arg5) = m ((c : Thread nD τ).loc main_arg5) := by
  dsimp only [W3, W2, W1, hostOps0, hostOps0_1, hostOps0_2]; after_results <;> rfl
theorem W3_arg6 : W3 m ρ c (Proc.devRef .tc main_arg6) = m ((c : Thread nD τ).loc main_arg6) := by
  dsimp only [W3, W2, W1, hostOps0, hostOps0_1, hostOps0_2]; after_results <;> rfl
theorem W3_arg7 : W3 m ρ c (Proc.devRef .tc main_arg7) = m ((c : Thread nD τ).loc main_arg7) := by
  dsimp only [W3, W2, W1, hostOps0, hostOps0_1, hostOps0_2]; after_results <;> rfl
theorem W3_arg8 : W3 m ρ c (Proc.devRef .tc main_arg8) = m ((c : Thread nD τ).loc main_arg8) := by
  dsimp only [W3, W2, W1, hostOps0, hostOps0_1, hostOps0_2]; after_results <;> rfl
theorem W3_arg9 : W3 m ρ c (Proc.devRef .tc main_arg9) = m ((c : Thread nD τ).loc main_arg9) := by
  dsimp only [W3, W2, W1, hostOps0, hostOps0_1, hostOps0_2]; after_results <;> rfl

/-- The edges' sources and targets (the edge array's two rows, each followed by one self-loop per node) and the edges'
    weights (the product of the two end nodes' inverse root degrees) are the reference's, by the same text. -/
theorem W3_v3 : W3 m ρ c (Proc.devRef .tc main_v3) = val_main_v3 (F := F) (m ((c : Thread nD τ).loc main_arg1)) := by
  dsimp only [W3, W2, W1, hostOps0, hostOps0_1, hostOps0_2]; after_results <;> rfl
theorem W3_v6 : W3 m ρ c (Proc.devRef .tc main_v6) = val_main_v6 (F := F) (m ((c : Thread nD τ).loc main_arg1)) := by
  dsimp only [W3, W2, W1, hostOps0, hostOps0_1, hostOps0_2]; after_results <;> rfl
set_option maxHeartbeats 40000000 in
theorem W3_v29 : W3 m ρ c (Proc.devRef .tc main_v29) = val_main_v29 (F := F) (m ((c : Thread nD τ).loc main_arg1)) := by
  dsimp only [W3, W2, W1, hostOps0, hostOps0_1, hostOps0_2]; after_results <;> rfl

/-! ## From boundary to boundary: what no launch and no stretch writes -/

theorem W4_v3 : W4 m ρ c (Proc.devRef .tc main_v3) = val_main_v3 (F := F) (m ((c : Thread nD τ).loc main_arg1)) :=
  (W4_of_ne m ρ c main_v3 (by decide)).trans (W3_v3 m ρ c)
theorem W6_v3 : W6 m ρ c (Proc.devRef .tc main_v3) = val_main_v3 (F := F) (m ((c : Thread nD τ).loc main_arg1)) :=
  (W6_of_ne m ρ c main_v3 (by decide)).trans ((h1_v3 (W4 m ρ c)).trans (W4_v3 m ρ c))
theorem W8_v3 : W8 m ρ c (Proc.devRef .tc main_v3) = val_main_v3 (F := F) (m ((c : Thread nD τ).loc main_arg1)) :=
  (W8_of_ne m ρ c main_v3 (by decide)).trans ((h2_v3 (W6 m ρ c)).trans (W6_v3 m ρ c))
theorem W4_v6 : W4 m ρ c (Proc.devRef .tc main_v6) = val_main_v6 (F := F) (m ((c : Thread nD τ).loc main_arg1)) :=
  (W4_of_ne m ρ c main_v6 (by decide)).trans (W3_v6 m ρ c)
theorem W6_v6 : W6 m ρ c (Proc.devRef .tc main_v6) = val_main_v6 (F := F) (m ((c : Thread nD τ).loc main_arg1)) :=
  (W6_of_ne m ρ c main_v6 (by decide)).trans ((h1_v6 (W4 m ρ c)).trans (W4_v6 m ρ c))
theorem W8_v6 : W8 m ρ c (Proc.devRef .tc main_v6) = val_main_v6 (F := F) (m ((c : Thread nD τ).loc main_arg1)) :=
  (W8_of_ne m ρ c main_v6 (by decide)).trans ((h2_v6 (W6 m ρ c)).trans (W6_v6 m ρ c))
theorem W4_v29 : W4 m ρ c (Proc.devRef .tc main_v29) = val_main_v29 (F := F) (m ((c : Thread nD τ).loc main_arg1)) :=
  (W4_of_ne m ρ c main_v29 (by decide)).trans (W3_v29 m ρ c)
theorem W6_v29 : W6 m ρ c (Proc.devRef .tc main_v29) = val_main_v29 (F := F) (m ((c : Thread nD τ).loc main_arg1)) :=
  (W6_of_ne m ρ c main_v29 (by decide)).trans ((h1_v29 (W4 m ρ c)).trans (W4_v29 m ρ c))
theorem W8_v29 : W8 m ρ c (Proc.devRef .tc main_v29) = val_main_v29 (F := F) (m ((c : Thread nD τ).loc main_arg1)) :=
  (W8_of_ne m ρ c main_v29 (by decide)).trans ((h2_v29 (W6 m ρ c)).trans (W6_v29 m ρ c))

theorem W4_arg3 : W4 m ρ c (Proc.devRef .tc main_arg3) = m ((c : Thread nD τ).loc main_arg3) :=
  (W4_of_ne m ρ c main_arg3 (by decide)).trans (W3_arg3 m ρ c)
theorem W5_arg4 : W5 m ρ c (Proc.devRef .tc main_arg4) = m ((c : Thread nD τ).loc main_arg4) :=
  (h1_arg4 (W4 m ρ c)).trans ((W4_of_ne m ρ c main_arg4 (by decide)).trans (W3_arg4 m ρ c))
theorem W6_arg5 : W6 m ρ c (Proc.devRef .tc main_arg5) = m ((c : Thread nD τ).loc main_arg5) :=
  (W6_of_ne m ρ c main_arg5 (by decide)).trans ((h1_arg5 (W4 m ρ c)).trans ((W4_of_ne m ρ c main_arg5 (by decide)).trans (W3_arg5 m ρ c)))
theorem W7_arg6 : W7 m ρ c (Proc.devRef .tc main_arg6) = m ((c : Thread nD τ).loc main_arg6) :=
  (h2_arg6 (W6 m ρ c)).trans ((W6_of_ne m ρ c main_arg6 (by decide)).trans ((h1_arg6 (W4 m ρ c)).trans
    ((W4_of_ne m ρ c main_arg6 (by decide)).trans (W3_arg6 m ρ c))))
theorem W8_arg7 : W8 m ρ c (Proc.devRef .tc main_arg7) = m ((c : Thread nD τ).loc main_arg7) :=
  (W8_of_ne m ρ c main_arg7 (by decide)).trans ((h2_arg7 (W6 m ρ c)).trans ((W6_of_ne m ρ c main_arg7 (by decide)).trans
    ((h1_arg7 (W4 m ρ c)).trans ((W4_of_ne m ρ c main_arg7 (by decide)).trans (W3_arg7 m ρ c)))))
theorem W8_arg9 : W8 m ρ c (Proc.devRef .tc main_arg9) = m ((c : Thread nD τ).loc main_arg9) :=
  (W8_of_ne m ρ c main_arg9 (by decide)).trans ((h2_arg9 (W6 m ρ c)).trans ((W6_of_ne m ρ c main_arg9 (by decide)).trans
    ((h1_arg9 (W4 m ρ c)).trans ((W4_of_ne m ρ c main_arg9 (by decide)).trans (W3_arg9 m ρ c)))))
theorem W9_arg8 : W9 m ρ c (Proc.devRef .tc main_arg8) = m ((c : Thread nD τ).loc main_arg8) :=
  (h3_arg8 (W8 m ρ c)).trans ((W8_of_ne m ρ c main_arg8 (by decide)).trans ((h2_arg8 (W6 m ρ c)).trans
    ((W6_of_ne m ρ c main_arg8 (by decide)).trans ((h1_arg8 (W4 m ρ c)).trans
      ((W4_of_ne m ρ c main_arg8 (by decide)).trans (W3_arg8 m ρ c))))))

end AnyValues

/-! ## The seven stages -/

section Stages

open Cert.ReferenceIdeal.Agg Cert.ReferenceIdeal.Stages

variable (m : (ℓ : Loc nD τ sig) → Buf (Elt Ideal) ℓ) (ρ : Dev nD → PrngReg) (c : Dev nD)

set_option quotPrecheck false

local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)

/-- The first launch leaves the first product. -/
theorem s1 : W4 m ρ c (Proc.devRef .tc main_v30) = val_main_v30 (F := Ideal) 𝐚0 𝐚2 := by
  refine (W4_arr m ρ c 2).trans ((Cert.KernelIdeal.Dense0.final (V3 m ρ) c).trans ?_)
  show Cert.Spec.dense1 (W3 m ρ c (Proc.devRef .tc main_arg0)) (W3 m ρ c (Proc.devRef .tc main_arg2)) = _
  rw [W3_arg0 m ρ c, W3_arg2 m ρ c]
  exact (dense1_eq _ _).symm

/-- The stretch after it leaves the first aggregate and the first bias row. -/
theorem s2 : W5 m ρ c (Proc.devRef .tc main_v43) = val_main_v43 (F := Ideal) 𝐚0 𝐚1 𝐚2 := by
  refine (h1_v43 (W4 m ρ c)).trans ?_
  rw [s1 m ρ c, W4_v3 m ρ c, W4_v6 m ρ c, W4_v29 m ρ c]
  exact (v43_eq _ _ _).symm
theorem s2b : W5 m ρ c (Proc.devRef .tc main_v44) = val_main_v44 (F := Ideal) 𝐚3 := by
  refine (h1_v44 (W4 m ρ c)).trans ?_
  rw [W4_arg3 m ρ c]
  exact row16_eq _ _

/-- The second launch leaves the second product. -/
theorem s3 : W6 m ρ c (Proc.devRef .tc main_v45) = val_main_v48 (F := Ideal) 𝐚0 𝐚1 𝐚2 𝐚3 𝐚4 := by
  refine (W6_arr m ρ c 3).trans ((Cert.KernelIdeal.Dense1.final (V5 m ρ) c).trans ?_)
  show Cert.Spec.denseRelu (W5 m ρ c (Proc.devRef .tc main_v43)) (W5 m ρ c (Proc.devRef .tc main_v44)) (W5 m ρ c (Proc.devRef .tc main_arg4)) = _
  rw [s2 m ρ c, s2b m ρ c, W5_arg4 m ρ c]
  exact (dense2_eq _ _ _ _ _).symm

theorem s4 : W7 m ρ c (Proc.devRef .tc main_v58) = val_main_v61 (F := Ideal) 𝐚0 𝐚1 𝐚2 𝐚3 𝐚4 := by
  refine (h2_v58 (W6 m ρ c)).trans ?_
  rw [s3 m ρ c, W6_v3 m ρ c, W6_v6 m ρ c, W6_v29 m ρ c]
  exact (v61_eq _ _ _ _ _).symm
theorem s4b : W7 m ρ c (Proc.devRef .tc main_v59) = val_main_v62 (F := Ideal) 𝐚5 := by
  refine (h2_v59 (W6 m ρ c)).trans ?_
  rw [W6_arg5 m ρ c]
  exact (row16_eq _ _).trans (v62_eq _).symm

/-- The third launch leaves the third product. -/
theorem s5 : W8 m ρ c (Proc.devRef .tc main_v60) = val_main_v66 (F := Ideal) 𝐚0 𝐚1 𝐚2 𝐚3 𝐚4 𝐚5 𝐚6 := by
  refine (W8_arr m ρ c 3).trans ((Cert.KernelIdeal.Dense2.final (V7 m ρ) c).trans ?_)
  show Cert.Spec.denseRelu (W7 m ρ c (Proc.devRef .tc main_v58)) (W7 m ρ c (Proc.devRef .tc main_v59)) (W7 m ρ c (Proc.devRef .tc main_arg6)) = _
  rw [s4 m ρ c, s4b m ρ c, W7_arg6 m ρ c]
  exact (dense3_eq _ _ _ _ _ _ _).symm

theorem s6 : W9 m ρ c (Proc.devRef .tc main_v73) = val_main_v79 (F := Ideal) 𝐚0 𝐚1 𝐚2 𝐚3 𝐚4 𝐚5 𝐚6 := by
  refine (h3_v73 (W8 m ρ c)).trans ?_
  rw [s5 m ρ c, W8_v3 m ρ c, W8_v6 m ρ c, W8_v29 m ρ c]
  exact (v79_eq _ _ _ _ _ _ _).symm
theorem s6b : W9 m ρ c (Proc.devRef .tc main_v74) = val_main_v80 (F := Ideal) 𝐚7 := by
  refine (h3_v74 (W8 m ρ c)).trans ?_
  rw [W8_arg7 m ρ c]
  exact (row16_eq _ _).trans (v80_eq _).symm
theorem s6c : W9 m ρ c (Proc.devRef .tc main_v75) = val_main_v84 (F := Ideal) 𝐚9 := by
  refine (h3_v75 (W8 m ρ c)).trans ?_
  rw [W8_arg9 m ρ c]
  exact row10_eq _ _

/-- The last launch leaves the reference's result. -/
theorem result : W10 m ρ c (Proc.devRef .tc main_v76) = val_main_v87 (F := Ideal) 𝐚0 𝐚1 𝐚2 𝐚3 𝐚4 𝐚5 𝐚6 𝐚7 𝐚8 𝐚9 := by
  refine (W10_arr m ρ c 4).trans ((Cert.KernelIdeal.Classify3.final (V9 m ρ) c).trans ?_)
  show Cert.Spec.classify (W9 m ρ c (Proc.devRef .tc main_v73)) (W9 m ρ c (Proc.devRef .tc main_v74)) (W9 m ρ c (Proc.devRef .tc main_arg8)) (W9 m ρ c (Proc.devRef .tc main_v75)) = _
  rw [s6 m ρ c, s6b m ρ c, W9_arg8 m ρ c, s6c m ρ c]
  exact (classify_eq _ _ _ _ _ _ _ _ _ _).symm

end Stages

end Cert.KernelIdeal.Chain

end
-- ==== Proof.lean ====
/-
  A three-layer graph-convolution network on 100000 nodes and 3.3 million edges (the edge array's 3.2 million, plus one
  self-loop per node), ending in a log-softmax over 10 classes. Each layer is a dense map followed by the normalised
  aggregation over the edges. The kernel program runs the four dense maps as launches over row blocks (the bias and the
  ReLU of the layer before fused into the next launch, the matrix products on bf16-rounded operands); the reference
  runs everything on the host in f32. Over the extended reals rounding is the identity and a blockwise matrix product
  is the whole product, so launch by launch the kernel program's arrays are the reference's stages; the aggregation
  between two launches is the same host text in both programs.

  `claim` assembles: the two kernel programs' frames (generated), the reference's frame (its run with the
  result dropped), the empty ledger, and the value claim — the kernel program's run with its result named, read through
  the seven stages, against the reference's run.
-/
import proofs.«150970_j10299331576450_1_alg».proof.Defs
import proofs.«150970_j10299331576450_1_alg».proof.Proof.Gen.Kernel
import proofs.«150970_j10299331576450_1_alg».proof.Proof.Gen.Kernel.Frame
import proofs.«150970_j10299331576450_1_alg».proof.Proof.Gen.KernelIdeal
import proofs.«150970_j10299331576450_1_alg».proof.Proof.Gen.KernelIdeal.Frame
import proofs.«150970_j10299331576450_1_alg».proof.Proof.Gen.ReferenceIdeal
import proofs.«150970_j10299331576450_1_alg».proof.Proof.Gen.Pre_finite_inputs
import proofs.«150970_j10299331576450_1_alg».proof.Proof.RefRead
import proofs.«150970_j10299331576450_1_alg».proof.Proof.RefRunS
import proofs.«150970_j10299331576450_1_alg».proof.Proof.KRun
import proofs.«150970_j10299331576450_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunS.run (F := Ideal) m ρ)

/-- The ideal pass rewrote nothing. -/
theorem preserves : Cert.preserves_Kernel_KernelIdeal := trivial

/-- Both programs end with the reference's last stage of the (agreeing) arguments in their result arrays. -/
theorem algebraic : Cert.algebraic_KernelIdeal_ReferenceIdeal := by
  intro m ρ m' ρ' _ hagree
  refine ⟨fun c => Cert.ReferenceIdeal.ReadP.val_main_v87 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RunS.run (F := Ideal) m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
